-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x17x3 : Shape := ⟨4, ![32, 512, 17, 3]⟩
abbrev S16 : Shape := ⟨1, ![16]⟩
abbrev S3x128 : Shape := ⟨2, ![3, 128]⟩
abbrev S128 : Shape := ⟨1, ![128]⟩
abbrev S1x128 : Shape := ⟨2, ![1, 128]⟩
abbrev S256 : Shape := ⟨1, ![256]⟩
abbrev S_ : Shape := ⟨0, ![]⟩

class Facts : Prop where
  bcast_S_S32x512x17x3 : S_.BroadcastsInDim S32x512x17x3 (![] : Fin 0 → Fin S32x512x17x3.rank)
  reducesTo_S32x512x17x3_S_d0_1_2_3 : S32x512x17x3.ReducesTo [0, 1, 2, 3] S_
  h_S_ : 0 < S_.numel
  bcast_S_S3x128 : S_.BroadcastsInDim S3x128 (![] : Fin 0 → Fin S3x128.rank)
  reducesTo_S3x128_S_d0_1 : S3x128.ReducesTo [0, 1] S_
  bcast_S_S128 : S_.BroadcastsInDim S128 (![] : Fin 0 → Fin S128.rank)
  reducesTo_S128_S_d0 : S128.ReducesTo [0] S_
  bcast_S_S1x128 : S_.BroadcastsInDim S1x128 (![] : Fin 0 → Fin S1x128.rank)
  reducesTo_S1x128_S_d0_1 : S1x128.ReducesTo [0, 1] S_
  bcast_S_S256 : S_.BroadcastsInDim S256 (![] : Fin 0 → Fin S256.rank)
  reducesTo_S256_S_d0 : S256.ReducesTo [0] S_
  bcast_S_S16 : S_.BroadcastsInDim S16 (![] : Fin 0 → Fin S16.rank)
  reducesTo_S16_S_d0 : S16.ReducesTo [0] S_

variable [Facts]

def fn_part2 {F : FTy → Type} [FloatOps F] (main_arg1 : IVec S16 32) (main_arg2 : IVec S16 32) (main_v33 : IVec S_ 1) : IVec S_ 1 :=
  let main_c_12 : IVec S_ 32 := constantI S_ 32 0#32
  let main_v34 : IVec S16 32 := broadcastInDim S16 ![] bcast_S_S16 main_c_12
  let main_v35 : IVec S16 1 := cmpi .sge main_arg1 main_v34
  let main_c_13 : IVec S_ 32 := constantI S_ 32 17#32
  let main_v36 : IVec S16 32 := broadcastInDim S16 ![] bcast_S_S16 main_c_13
  let main_v37 : IVec S16 1 := cmpi .slt main_arg1 main_v36
  let main_v38 : IVec S16 1 := andi main_v35 main_v37
  let main_c_14 : IVec S_ 1 := constantI S_ 1 1#1
  let main_v39 : IVec S_ 1 := (fun x v => Host.reduce IntOp.andi x v reducesTo_S16_S_d0 h_S_) main_v38 main_c_14
  let main_v40 : IVec S_ 1 := andi main_v33 main_v39
  let main_c_15 : IVec S_ 32 := constantI S_ 32 0#32
  let main_v41 : IVec S16 32 := broadcastInDim S16 ![] bcast_S_S16 main_c_15
  let main_v42 : IVec S16 1 := cmpi .sge main_arg2 main_v41
  let main_c_16 : IVec S_ 32 := constantI S_ 32 17#32
  let main_v43 : IVec S16 32 := broadcastInDim S16 ![] bcast_S_S16 main_c_16
  let main_v44 : IVec S16 1 := cmpi .slt main_arg2 main_v43
  let main_v45 : IVec S16 1 := andi main_v42 main_v44
  let main_c_17 : IVec S_ 1 := constantI S_ 1 1#1
  let main_v46 : IVec S_ 1 := (fun x v => Host.reduce IntOp.andi x v reducesTo_S16_S_d0 h_S_) main_v45 main_c_17
  let main_v47 : IVec S_ 1 := andi main_v40 main_v46
  main_v47

def fn_part1 {F : FTy → Type} [FloatOps F] (main_arg1 : IVec S16 32) (main_arg2 : IVec S16 32) (main_arg6 : FVec F S128 .f32) (main_arg7 : FVec F S256 .f32) (main_arg8 : FVec F S256 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg1 main_arg2 main_v33

def fn {F : FTy → Type} [FloatOps F] (main_arg0 : FVec F S32x512x17x3 .f32) (main_arg1 : IVec S16 32) (main_arg2 : IVec S16 32) (main_arg3 : FVec F S3x128 .f32) (main_arg4 : FVec F S128 .f32) (main_arg5 : FVec F S1x128 .f32) (main_arg6 : FVec F S128 .f32) (main_arg7 : FVec F S256 .f32) (main_arg8 : FVec F S256 .f32) : IVec S_ 1 :=
  let main_v0 : FVec F S32x512x17x3 .f32 := Host.absf main_arg0
  let main_cst : FVec F S_ .f32 := constant S_ .f32 0x7F800000#32
  let main_v1 : FVec F S32x512x17x3 .f32 := broadcastInDim S32x512x17x3 ![] bcast_S_S32x512x17x3 main_cst
  let main_v2 : IVec S32x512x17x3 1 := cmpf .olt main_v0 main_v1
  let main_c : IVec S_ 1 := constantI S_ 1 1#1
  let main_v3 : IVec S_ 1 := (fun x v => Host.reduce IntOp.andi x v reducesTo_S32x512x17x3_S_d0_1_2_3 h_S_) main_v2 main_c
  let main_v4 : FVec F S3x128 .f32 := Host.absf main_arg3
  let main_cst_0 : FVec F S_ .f32 := constant S_ .f32 0x7F800000#32
  let main_v5 : FVec F S3x128 .f32 := broadcastInDim S3x128 ![] bcast_S_S3x128 main_cst_0
  let main_v6 : IVec S3x128 1 := cmpf .olt main_v4 main_v5
  let main_c_1 : IVec S_ 1 := constantI S_ 1 1#1
  let main_v7 : IVec S_ 1 := (fun x v => Host.reduce IntOp.andi x v reducesTo_S3x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1x128 .f32 := Host.absf main_arg5
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg1 main_arg2 main_arg6 main_arg7 main_arg8 main_v13 main_v16
-- ==== Kernel.lean ====
abbrev S32x512x17x3 : Shape := ⟨4, ![32, 512, 17, 3]⟩
abbrev S16 : Shape := ⟨1, ![16]⟩
abbrev S3x128 : Shape := ⟨2, ![3, 128]⟩
abbrev S128 : Shape := ⟨1, ![128]⟩
abbrev S1x128 : Shape := ⟨2, ![1, 128]⟩
abbrev S256 : Shape := ⟨1, ![256]⟩
abbrev S16x1 : Shape := ⟨2, ![16, 1]⟩
abbrev S1x17 : Shape := ⟨2, ![1, 17]⟩
abbrev S16x17 : Shape := ⟨2, ![16, 17]⟩
abbrev S32x512x3x17 : Shape := ⟨4, ![32, 512, 3, 17]⟩
abbrev S1x256 : Shape := ⟨2, ![1, 256]⟩
abbrev S32x512x16x256 : Shape := ⟨4, ![32, 512, 16, 256]⟩
abbrev S1x256x3x17 : Shape := ⟨4, ![1, 256, 3, 17]⟩
abbrev S1x256x16x256 : Shape := ⟨4, ![1, 256, 16, 256]⟩
abbrev S256x3x17 : Shape := ⟨3, ![256, 3, 17]⟩
abbrev S17x16 : Shape := ⟨2, ![17, 16]⟩
abbrev S256x1x17 : Shape := ⟨3, ![256, 1, 17]⟩
abbrev S256x17 : Shape := ⟨2, ![256, 17]⟩
abbrev S256x16 : Shape := ⟨2, ![256, 16]⟩
abbrev S1x1x128 : Shape := ⟨3, ![1, 1, 128]⟩
abbrev S256x16x1 : Shape := ⟨3, ![256, 16, 1]⟩
abbrev S256x16x128 : Shape := ⟨3, ![256, 16, 128]⟩
abbrev S256x16x256 : Shape := ⟨3, ![256, 16, 256]⟩
abbrev S1x1x256 : Shape := ⟨3, ![1, 1, 256]⟩

abbrev nBuf : Space → Nat
  | .hbm => 28
  | .vmem => 11
  | .smem => 0
  | _ => 0

abbrev bufTy : (tb : Table) → Fin (tcTables nBuf tb) → BufTy
  | .hbm, ⟨0, _⟩ => ⟨S32x512x17x3, .f32⟩
  | .hbm, ⟨1, _⟩ => ⟨S16, .i32⟩
  | .hbm, ⟨2, _⟩ => ⟨S16, .i32⟩
  | .hbm, ⟨3, _⟩ => ⟨S3x128, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S256, .f32⟩
  | .hbm, ⟨8, _⟩ => ⟨S256, .f32⟩
  | .hbm, ⟨9, _⟩ => ⟨S16x1, .i32⟩
  | .hbm, ⟨10, _⟩ => ⟨S1x17, .i32⟩
  | .hbm, ⟨11, _⟩ => ⟨S16x17, .i32⟩
  | .hbm, ⟨12, _⟩ => ⟨S16x17, .i32⟩
  | .hbm, ⟨13, _⟩ => ⟨S16x17, .i1⟩
  | .hbm, ⟨14, _⟩ => ⟨S16x17, .f32⟩
  | .hbm, ⟨15, _⟩ => ⟨S16x1, .i32⟩
  | .hbm, ⟨16, _⟩ => ⟨S1x17, .i32⟩
  | .hbm, ⟨17, _⟩ => ⟨S16x17, .i32⟩
  | .hbm, ⟨18, _⟩ => ⟨S16x17, .i32⟩
  | .hbm, ⟨19, _⟩ => ⟨S16x17, .i1⟩
  | .hbm, ⟨20, _⟩ => ⟨S16x17, .f32⟩
  | .hbm, ⟨21, _⟩ => ⟨S16x17, .f32⟩
  | .hbm, ⟨22, _⟩ => ⟨S32x512x3x17, .f32⟩
  | .hbm, ⟨23, _⟩ => ⟨S1x128, .f32⟩
  | .hbm, ⟨24, _⟩ => ⟨S1x128, .f32⟩
  | .hbm, ⟨25, _⟩ => ⟨S1x256, .f32⟩
  | .hbm, ⟨26, _⟩ => ⟨S1x256, .f32⟩
  | .hbm, ⟨27, _⟩ => ⟨S32x512x16x256, .f32⟩
  | .local _ .vmem, ⟨0, _⟩ => ⟨S1x256x3x17, .f32⟩
  | .local _ .vmem, ⟨1, _⟩ => ⟨S1x256x3x17, .f32⟩
  | .local _ .vmem, ⟨2, _⟩ => ⟨S16x17, .f32⟩
  | .local _ .vmem, ⟨3, _⟩ => ⟨S3x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x256, .f32⟩
  | .local _ .vmem, ⟨8, _⟩ => ⟨S1x256, .f32⟩
  | .local _ .vmem, ⟨9, _⟩ => ⟨S1x256x16x256, .f32⟩
  | .local _ .vmem, ⟨10, _⟩ => ⟨S1x256x16x256, .f32⟩
  | _, _ => ⟨S32x512x17x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v0 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x3x17 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16x17 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x16x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  bcast_S16_S16x1_0 : S16.BroadcastsInDim S16x1 (![0] : Fin 1 → Fin S16x1.rank)
  bcast_S16x1_S16x17_0_1 : S16x1.BroadcastsInDim S16x17 (![0, 1] : Fin 2 → Fin S16x17.rank)
  bcast_S1x17_S16x17_0_1 : S1x17.BroadcastsInDim S16x17 (![0, 1] : Fin 2 → Fin S16x17.rank)
  transposes_S32x512x17x3_S32x512x3x17_0_1_3_2 : S32x512x17x3.Transposes [0, 1, 3, 2] S32x512x3x17
  shapeCasts_S128_S1x128 : S128.ShapeCasts S1x128
  shapeCasts_S256_S1x256 : S256.ShapeCasts S1x256
  inb_S1x256x3x17_S1x256x3x17_0_0_0_0 : ∀ a, (![0, 0, 0, 0] : Fin 4 → Nat) a + S1x256x3x17.size a ≤ S1x256x3x17.size a
  h_S1x256x3x17 : 0 < S1x256x3x17.numel
  shapeCasts_S1x256x3x17_S256x3x17 : S1x256x3x17.ShapeCasts S256x3x17
  inb_S16x17_S16x17_0_0 : ∀ a, (![0, 0] : Fin 2 → Nat) a + S16x17.size a ≤ S16x17.size a
  h_S16x17 : 0 < S16x17.numel
  shapeCasts_S16x17_S16x17 : S16x17.ShapeCasts S16x17
  transposes_S16x17_p1_0_S17x16 : S16x17.Transposes [1, 0] S17x16
  slices_S256x3x17_o0_0_0_S256x1x17 : S256x3x17.Slices ![0, 0, 0] S256x1x17
  shapeCasts_S256x1x17_S256x17 : S256x1x17.ShapeCasts S256x17
  slices_S256x3x17_o0_1_0_S256x1x17 : S256x3x17.Slices ![0, 1, 0] S256x1x17
  slices_S256x3x17_o0_2_0_S256x1x17 : S256x3x17.Slices ![0, 2, 0] S256x1x17
  inb_S3x128_S3x128_0_0 : ∀ a, (![0, 0] : Fin 2 → Nat) a + S3x128.size a ≤ S3x128.size a
  h_S3x128 : 0 < S3x128.numel
  slices_S3x128_o0_0_S1x128 : S3x128.Slices ![0, 0] S1x128
  shapeCasts_S1x128_S1x1x128 : S1x128.ShapeCasts S1x1x128
  slices_S3x128_o1_0_S1x128 : S3x128.Slices ![1, 0] S1x128
  slices_S3x128_o2_0_S1x128 : S3x128.Slices ![2, 0] S1x128
  shapeCasts_S256x16_S256x16x1 : S256x16.ShapeCasts S256x16x1
  broadcasts_S256x16x1_S256x16x128 : S256x16x1.Broadcasts S256x16x128
  broadcasts_S1x1x128_S256x16x128 : S1x1x128.Broadcasts S256x16x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  concatenates_S256x16x128_S256x16x128_S256x16x256_d2 : Shape.Concatenates [S256x16x128, S256x16x128] S256x16x256 2
  reduces_S256x16x256_S256x16 : S256x16x256.Reduces [2] S256x16
  broadcasts_S256x16x1_S256x16x256 : S256x16x1.Broadcasts S256x16x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S1x256_S1x1x256 : S1x256.ShapeCasts S1x1x256
  broadcasts_S1x1x256_S256x16x256 : S1x1x256.Broadcasts S256x16x256
  inb_S1x256x16x256_S1x256x16x256_0_0_0_0 : ∀ a, (![0, 0, 0, 0] : Fin 4 → Nat) a + S1x256x16x256.size a ≤ S1x256x16x256.size a
  h_S1x256x16x256 : 0 < S1x256x16x256.numel
  shapeCasts_S1x256x16x256_S256x16x256 : S1x256x16x256.ShapeCasts S256x16x256
  shapeCasts_S256x16x256_S1x256x16x256 : S256x16x256.ShapeCasts S1x256x16x256
  dot_S256x17_S17x16_S256x16_1_0_0_1_n_n_wf : DotDims.WF S256x17 S17x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x3x17.size a ≤ S32x512x3x17.size a
  hwx0_0 : ∀ i : grid0.Coords, EltTy.bits .f32 = 32 ∨ (Rect.block (s := S32x512x3x17) S1x256x3x17.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x17.size a ≤ S16x17.size a
  hwx0_1 : ∀ i : grid0.Coords, EltTy.bits .f32 = 32 ∨ (Rect.block (s := S16x17) S16x17.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x128.size a ≤ S3x128.size a
  hwx0_2 : ∀ i : grid0.Coords, EltTy.bits .f32 = 32 ∨ (Rect.block (s := S3x128) S3x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x16x256.size a ≤ S32x512x16x256.size a
  hwx0_8 : ∀ i : grid0.Coords, EltTy.bits .f32 = 32 ∨ (Rect.block (s := S32x512x16x256) S1x256x16x256.size (cc0_transform_8 i) (hinb0_8 i)).WholeWords (EltTy.packing .f32)

variable [Facts₀]

def dot_S256x17_S17x16_S256x16_1_0_0_1_n_n : DotDims S256x17 S17x16 S256x16 where
  lhsContracting := [1]
  rhsContracting := [0]
  lhsNonContracting := [0]
  rhsNonContracting := [1]
  lhsBatch := []
  rhsBatch := []
  wf := dot_S256x17_S17x16_S256x16_1_0_0_1_n_n_wf

abbrev win0_0 : Pipeline.Window sig grid0 :=
  Pipeline.Window.ofSpec (Memref.whole main_v3) S1x256x3x17.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S16x17.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S3x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x256x16x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x512x17x3 : Shape := ⟨4, ![32, 512, 17, 3]⟩
abbrev S16 : Shape := ⟨1, ![16]⟩
abbrev S3x128 : Shape := ⟨2, ![3, 128]⟩
abbrev S128 : Shape := ⟨1, ![128]⟩
abbrev S1x128 : Shape := ⟨2, ![1, 128]⟩
abbrev S256 : Shape := ⟨1, ![256]⟩
abbrev S_ : Shape := ⟨0, ![]⟩
abbrev S16x1 : Shape := ⟨2, ![16, 1]⟩
abbrev S32x512x16x3 : Shape := ⟨4, ![32, 512, 16, 3]⟩
abbrev S32x512x16 : Shape := ⟨3, ![32, 512, 16]⟩
abbrev S32x512x16x1 : Shape := ⟨4, ![32, 512, 16, 1]⟩
abbrev S32x512x16x128 : Shape := ⟨4, ![32, 512, 16, 128]⟩
abbrev S1x1x1x128 : Shape := ⟨4, ![1, 1, 1, 128]⟩
abbrev S32x512x16x256 : Shape := ⟨4, ![32, 512, 16, 256]⟩
abbrev S1x1x1x256 : Shape := ⟨4, ![1, 1, 1, 256]⟩

abbrev nBuf : Space → Nat
  | .hbm => 80
  | .vmem => 0
  | .smem => 0
  | _ => 0

abbrev bufTy : (tb : Table) → Fin (tcTables nBuf tb) → BufTy
  | .hbm, ⟨0, _⟩ => ⟨S32x512x17x3, .f32⟩
  | .hbm, ⟨1, _⟩ => ⟨S16, .i32⟩
  | .hbm, ⟨2, _⟩ => ⟨S16, .i32⟩
  | .hbm, ⟨3, _⟩ => ⟨S3x128, .f32⟩
  | .hbm, ⟨4, _⟩ => ⟨S128, .f32⟩
  | .hbm, ⟨5, _⟩ => ⟨S1x128, .f32⟩
  | .hbm, ⟨6, _⟩ => ⟨S128, .f32⟩
  | .hbm, ⟨7, _⟩ => ⟨S256, .f32⟩
  | .hbm, ⟨8, _⟩ => ⟨S256, .f32⟩
  | .hbm, ⟨9, _⟩ => ⟨S_, .i32⟩
  | .hbm, ⟨10, _⟩ => ⟨S16, .i32⟩
  | .hbm, ⟨11, _⟩ => ⟨S16, .i1⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S16, .i32⟩
  | .hbm, ⟨16, _⟩ => ⟨S16x1, .i32⟩
  | .hbm, ⟨17, _⟩ => ⟨S32x512x16x3, .f32⟩
  | .hbm, ⟨18, _⟩ => ⟨S_, .i32⟩
  | .hbm, ⟨19, _⟩ => ⟨S16, .i32⟩
  | .hbm, ⟨20, _⟩ => ⟨S16, .i1⟩
  | .hbm, ⟨21, _⟩ => ⟨S_, .i32⟩
  | .hbm, ⟨22, _⟩ => ⟨S16, .i32⟩
  | .hbm, ⟨23, _⟩ => ⟨S16, .i32⟩
  | .hbm, ⟨24, _⟩ => ⟨S16, .i32⟩
  | .hbm, ⟨25, _⟩ => ⟨S16x1, .i32⟩
  | .hbm, ⟨26, _⟩ => ⟨S32x512x16x3, .f32⟩
  | .hbm, ⟨27, _⟩ => ⟨S32x512x16x3, .f32⟩
  | .hbm, ⟨28, _⟩ => ⟨S32x512x16x3, .f32⟩
  | .hbm, ⟨29, _⟩ => ⟨S_, .f32⟩
  | .hbm, ⟨30, _⟩ => ⟨S32x512x16, .f32⟩
  | .hbm, ⟨31, _⟩ => ⟨S32x512x16x1, .f32⟩
  | .hbm, ⟨32, _⟩ => ⟨S32x512x16x1, .f32⟩
  | .hbm, ⟨33, _⟩ => ⟨S_, .f32⟩
  | .hbm, ⟨34, _⟩ => ⟨S32x512x16x1, .f32⟩
  | .hbm, ⟨35, _⟩ => ⟨S32x512x16x1, .f32⟩
  | .hbm, ⟨36, _⟩ => ⟨S32x512x16x3, .f32⟩
  | .hbm, ⟨37, _⟩ => ⟨S32x512x16x3, .f32⟩
  | .hbm, ⟨38, _⟩ => ⟨S32x512x16x128, .f32⟩
  | .hbm, ⟨39, _⟩ => ⟨S1x1x1x128, .f32⟩
  | .hbm, ⟨40, _⟩ => ⟨S32x512x16x128, .f32⟩
  | .hbm, ⟨41, _⟩ => ⟨S32x512x16x128, .f32⟩
  | .hbm, ⟨42, _⟩ => ⟨S128, .f32⟩
  | .hbm, ⟨43, _⟩ => ⟨S1x1x1x128, .f32⟩
  | .hbm, ⟨44, _⟩ => ⟨S32x512x16x128, .f32⟩
  | .hbm, ⟨45, _⟩ => ⟨S32x512x16x128, .f32⟩
  | .hbm, ⟨46, _⟩ => ⟨S32x512x16x128, .f32⟩
  | .hbm, ⟨47, _⟩ => ⟨S1x1x1x128, .f32⟩
  | .hbm, ⟨48, _⟩ => ⟨S32x512x16x128, .f32⟩
  | .hbm, ⟨49, _⟩ => ⟨S32x512x16x128, .f32⟩
  | .hbm, ⟨50, _⟩ => ⟨S32x512x16x256, .f32⟩
  | .hbm, ⟨51, _⟩ => ⟨S_, .f32⟩
  | .hbm, ⟨52, _⟩ => ⟨S32x512x16, .f32⟩
  | .hbm, ⟨53, _⟩ => ⟨S32x512x16x1, .f32⟩
  | .hbm, ⟨54, _⟩ => ⟨S_, .f32⟩
  | .hbm, ⟨55, _⟩ => ⟨S32x512x16x1, .f32⟩
  | .hbm, ⟨56, _⟩ => ⟨S32x512x16x1, .f32⟩
  | .hbm, ⟨57, _⟩ => ⟨S32x512x16x256, .f32⟩
  | .hbm, ⟨58, _⟩ => ⟨S32x512x16x256, .f32⟩
  | .hbm, ⟨59, _⟩ => ⟨S32x512x16x256, .f32⟩
  | .hbm, ⟨60, _⟩ => ⟨S_, .f32⟩
  | .hbm, ⟨61, _⟩ => ⟨S32x512x16, .f32⟩
  | .hbm, ⟨62, _⟩ => ⟨S32x512x16x1, .f32⟩
  | .hbm, ⟨63, _⟩ => ⟨S_, .f32⟩
  | .hbm, ⟨64, _⟩ => ⟨S32x512x16x1, .f32⟩
  | .hbm, ⟨65, _⟩ => ⟨S32x512x16x1, .f32⟩
  | .hbm, ⟨66, _⟩ => ⟨S32x512x16x256, .f32⟩
  | .hbm, ⟨67, _⟩ => ⟨S32x512x16x256, .f32⟩
  | .hbm, ⟨68, _⟩ => ⟨S_, .f32⟩
  | .hbm, ⟨69, _⟩ => ⟨S32x512x16x1, .f32⟩
  | .hbm, ⟨70, _⟩ => ⟨S32x512x16x1, .f32⟩
  | .hbm, ⟨71, _⟩ => ⟨S32x512x16x1, .f32⟩
  | .hbm, ⟨72, _⟩ => ⟨S32x512x16x256, .f32⟩
  | .hbm, ⟨73, _⟩ => ⟨S32x512x16x256, .f32⟩
  | .hbm, ⟨74, _⟩ => ⟨S1x1x1x256, .f32⟩
  | .hbm, ⟨75, _⟩ => ⟨S32x512x16x256, .f32⟩
  | .hbm, ⟨76, _⟩ => ⟨S32x512x16x256, .f32⟩
  | .hbm, ⟨77, _⟩ => ⟨S1x1x1x256, .f32⟩
  | .hbm, ⟨78, _⟩ => ⟨S32x512x16x256, .f32⟩
  | .hbm, ⟨79, _⟩ => ⟨S32x512x16x256, .f32⟩
  | _, _ => ⟨S32x512x17x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_call0_v0 : Ref sig .tc := ⟨.hbm, 28, rfl⟩
abbrev main_call0_cst : Ref sig .tc := ⟨.hbm, 29, rfl⟩
abbrev main_call0_v1 : Ref sig .tc := ⟨.hbm, 30, rfl⟩
abbrev main_call0_v2 : Ref sig .tc := ⟨.hbm, 31, rfl⟩
abbrev main_v15 : Ref sig .tc := ⟨.hbm, 32, rfl⟩
abbrev main_cst : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_3 : Ref sig .tc := ⟨.hbm, 51, rfl⟩
abbrev main_v33 : Ref sig .tc := ⟨.hbm, 52, rfl⟩
abbrev main_v34 : Ref sig .tc := ⟨.hbm, 53, rfl⟩
abbrev main_cst_4 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_5 : Ref sig .tc := ⟨.hbm, 60, rfl⟩
abbrev main_v40 : Ref sig .tc := ⟨.hbm, 61, rfl⟩
abbrev main_v41 : Ref sig .tc := ⟨.hbm, 62, rfl⟩
abbrev main_cst_6 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_7 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  reducesTo_S32x512x16x3_S32x512x16_d3 : S32x512x16x3.ReducesTo [3] S32x512x16
  h_S_ : 0 < S_.numel
  bcast_S32x512x16_S32x512x16x1_0_1_2 : S32x512x16.BroadcastsInDim S32x512x16x1 (![0, 1, 2] : Fin 3 → Fin S32x512x16x1.rank)
  bcast_S_S32x512x16x1 : S_.BroadcastsInDim S32x512x16x1 (![] : Fin 0 → Fin S32x512x16x1.rank)
  bcast_S32x512x16x1_S32x512x16x3_0_1_2_3 : S32x512x16x1.BroadcastsInDim S32x512x16x3 (![0, 1, 2, 3] : Fin 4 → Fin S32x512x16x3.rank)
  bcast_S128_S1x1x1x128_3 : S128.BroadcastsInDim S1x1x1x128 (![3] : Fin 1 → Fin S1x1x1x128.rank)
  bcast_S1x1x1x128_S32x512x16x128_0_1_2_3 : S1x1x1x128.BroadcastsInDim S32x512x16x128 (![0, 1, 2, 3] : Fin 4 → Fin S32x512x16x128.rank)
  shapeCasts_S1x128_S128 : S1x128.ShapeCasts S128
  bcast_S32x512x16x1_S32x512x16x128_0_1_2_3 : S32x512x16x1.BroadcastsInDim S32x512x16x128 (![0, 1, 2, 3] : Fin 4 → Fin S32x512x16x128.rank)
  concatenates_S32x512x16x128_S32x512x16x128_S32x512x16x256_d3 : Shape.Concatenates [S32x512x16x128, S32x512x16x128] S32x512x16x256 3
  reducesTo_S32x512x16x256_S32x512x16_d3 : S32x512x16x256.ReducesTo [3] S32x512x16
  bcast_S32x512x16x1_S32x512x16x256_0_1_2_3 : S32x512x16x1.BroadcastsInDim S32x512x16x256 (![0, 1, 2, 3] : Fin 4 → Fin S32x512x16x256.rank)
  bcast_S256_S1x1x1x256_3 : S256.BroadcastsInDim S1x1x1x256 (![3] : Fin 1 → Fin S1x1x1x256.rank)
  bcast_S1x1x1x256_S32x512x16x256_0_1_2_3 : S1x1x1x256.BroadcastsInDim S32x512x16x256 (![0, 1, 2, 3] : Fin 4 → Fin S32x512x16x256.rank)
  gather_S32x512x17x3_S16x1_S32x512x16x3_013_2_n_n_2_1_3251213_wf : GatherDims.WF S32x512x17x3 S16x1 S32x512x16x3 [0, 1, 3] [2] [] [2] [] 1 ![32, 512, 1, 3]
  dot_S32x512x16x3_S3x128_S32x512x16x128_3_0_012_1_n_n_wf : DotDims.WF S32x512x16x3 S3x128 S32x512x16x128 [3] [0] [0, 1, 2] [1] [] []

variable [Facts₀]

def gather_S32x512x17x3_S16x1_S32x512x16x3_013_2_n_n_2_1_3251213 : GatherDims S32x512x17x3 S16x1 S32x512x16x3 where
  offsetDims := [0, 1, 3]
  collapsedSliceDims := [2]
  operandBatchingDims := []
  startIndicesBatchingDims := []
  startIndexMap := [2]
  indexVectorDim := 1
  sliceSizes := ![32, 512, 1, 3]
  wf := gather_S32x512x17x3_S16x1_S32x512x16x3_013_2_n_n_2_1_3251213_wf
def dot_S32x512x16x3_S3x128_S32x512x16x128_3_0_012_1_n_n : DotDims S32x512x16x3 S3x128 S32x512x16x128 where
  lhsContracting := [3]
  rhsContracting := [0]
  lhsNonContracting := [0, 1, 2]
  rhsNonContracting := [1]
  lhsBatch := []
  rhsBatch := []
  wf := dot_S32x512x16x3_S3x128_S32x512x16x128_3_0_012_1_n_n_wf

class Facts : Prop extends Facts₀ where

variable [Facts]
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Spec.lean ====
import Idealize.ShloMosaic.PureOps.Ideal
import Idealize.ShloMosaic.PureOps.Ideal.Laws
import Idealize.ShloMosaic.Lib.ValueIdx
import proofs.«429518_j69896297775214_2_alg».proof.Proof.LibReal

/-!
  The limb-embedding row, as pure functions of extended reals.

  For one (batch, time, limb) the program forms the limb vector `v` (child joint minus parent joint,
  three coordinates), its length `L = max (√(v·v)) ε`, a row of 256 numbers — the first 128 the
  direction `v / L` projected through a 3 × 128 matrix plus a bias, the last 128 the length times a
  row plus a bias — and the layer norm of that row.  Two arrangements of the first half are stated:
  project then scale by `1 / L` (`tokK`), and scale each coordinate by `L` then project (`tokR`).
  They agree when `v` and the matrix are real, because `L` is then a nonzero real.
  Likewise two ways to form `v`: a sum against a difference of one-hot rows (`limbK`) and a
  difference of two looked-up joints (`limbR`); they agree on real coordinates when both joint
  numbers are below 17.
-/

open scoped BigOperators

noncomputable section

namespace Cert.Spec

open Idealize.ShloMosaic Idealize.ShloMosaic.ValueIdx Cert.LibReal

abbrev Sxyz : Shape := ⟨4, ![32, 512, 17, 3]⟩
abbrev Sidx : Shape := ⟨1, ![16]⟩
abbrev Sdw : Shape := ⟨2, ![3, 128]⟩
abbrev Sv128 : Shape := ⟨1, ![128]⟩
abbrev Sr128 : Shape := ⟨2, ![1, 128]⟩
abbrev Sv256 : Shape := ⟨1, ![256]⟩
abbrev Sout : Shape := ⟨4, ![32, 512, 16, 256]⟩

/-- The floor under the limb length (the f32 nearest 1e-6). -/
abbrev epsLen : EReal := Ideal.ofBits .f32 0x358637BD#32
/-- The layer norm's variance offset (the f32 nearest 1e-5). -/
abbrev epsLn : EReal := Ideal.ofBits .f32 0x3727C5AC#32
/-- The row width 256 as a float. -/
abbrev c256 : EReal := Ideal.ofBits .f32 0x43800000#32
/-- The float one. -/
abbrev cOne : EReal := Ideal.ofBits .f32 0x3F800000#32

/-- The limb's length, floored at `epsLen`. -/
def limbLen (v : Fin 3 → EReal) : EReal :=
  max (Ideal.sqrt (v 0 * v 0 + v 1 * v 1 + v 2 * v 2)) epsLen

/-- The row before normalisation: project, then scale by the reciprocal length. -/
def tokK (v : Fin 3 → EReal) (w : Fin 3 → Fin 128 → EReal) (db lw lb : Fin 128 → EReal) (d : Fin 256) : EReal :=
  if h : d.val < 128 then
    (v 0 * w 0 ⟨d.val, h⟩ + v 1 * w 1 ⟨d.val, h⟩ + v 2 * w 2 ⟨d.val, h⟩) * Ideal.div cOne (limbLen v) + db ⟨d.val, h⟩
  else
    limbLen v * lw ⟨d.val - 128, by have := d.isLt; omega⟩ + lb ⟨d.val - 128, by have := d.isLt; omega⟩

/-- The row before normalisation: divide each coordinate by the length, then project. -/
def tokR (v : Fin 3 → EReal) (w : Fin 3 → Fin 128 → EReal) (db lw lb : Fin 128 → EReal) (d : Fin 256) : EReal :=
  if h : d.val < 128 then
    (∑ c : Fin 3, Ideal.div (v c) (limbLen v) * w c ⟨d.val, h⟩) + db ⟨d.val, h⟩
  else
    limbLen v * lw ⟨d.val - 128, by have := d.isLt; omega⟩ + lb ⟨d.val - 128, by have := d.isLt; omega⟩

/-- The mean of a row of 256. -/
def rowMean (tok : Fin 256 → EReal) : EReal := Ideal.div (∑ k, tok k) c256

/-- Layer norm of a row of 256 at position `d`, with gain `g` and offset `b`. -/
def lnRow (tok g b : Fin 256 → EReal) (d : Fin 256) : EReal :=
  (tok d - rowMean tok)
      * Ideal.rsqrt (Ideal.div (∑ k, (tok k - rowMean tok) * (tok k - rowMean tok)) c256 + epsLn)
      * g d + b d

/-- Entry `j` of the one-hot row of the joint number `a`: one where `a` is `j`, else zero (all zero when `a` is no joint). -/
def oneHot (a : BitVec 32) (j : Fin 17) : EReal := if a = BitVec.ofNat 32 j.val then 1 else 0

/-- The selection row: child's one-hot minus parent's. -/
def selK (pa ch : BitVec 32) (j : Fin 17) : EReal := oneHot ch j - oneHot pa j

/-- A limb coordinate as the joints' coordinates summed against the selection row. -/
def limbK (x : Fin 17 → EReal) (pa ch : BitVec 32) : EReal := ∑ j, x j * selK pa ch j

/-- The joint a lookup reads for the number `a`: a negative number counts from the end, and the result is
    clamped into `0 … 16`. -/
def refJoint (a : BitVec 32) : Fin 17 :=
  ⟨min (if a.toInt < 0 then a + 17#32 else a).toInt.toNat 16, by omega⟩

/-- A limb coordinate as the child joint's minus the parent joint's. -/
def limbR (x : Fin 17 → EReal) (pa ch : BitVec 32) : EReal := x (refJoint ch) - x (refJoint pa)

/-- The whole result, in the first arrangement. -/
def GK (xyz : Sxyz.Idx → EReal) (pa ch : Sidx.Idx → BitVec 32) (dw : Sdw.Idx → EReal) (db : Sv128.Idx → EReal)
    (lw : Sr128.Idx → EReal) (lb : Sv128.Idx → EReal) (g b : Sv256.Idx → EReal) : Sout.Idx → EReal := fun i =>
  lnRow (tokK (fun c => limbK (fun j => xyz (ix4 (i 0) (i 1) j c)) (pa (ix1 (i 2))) (ch (ix1 (i 2))))
      (fun c e => dw (ix2 c e)) (fun e => db (ix1 e)) (fun e => lw (ix2 (0 : Fin 1) e)) (fun e => lb (ix1 e)))
    (fun e => g (ix1 e)) (fun e => b (ix1 e)) (i 3)

/-- The whole result, in the second arrangement. -/
def GR (xyz : Sxyz.Idx → EReal) (pa ch : Sidx.Idx → BitVec 32) (dw : Sdw.Idx → EReal) (db : Sv128.Idx → EReal)
    (lw : Sr128.Idx → EReal) (lb : Sv128.Idx → EReal) (g b : Sv256.Idx → EReal) : Sout.Idx → EReal := fun i =>
  lnRow (tokR (fun c => limbR (fun j => xyz (ix4 (i 0) (i 1) j c)) (pa (ix1 (i 2))) (ch (ix1 (i 2))))
      (fun c e => dw (ix2 c e)) (fun e => db (ix1 e)) (fun e => lw (ix2 (0 : Fin 1) e)) (fun e => lb (ix1 e)))
    (fun e => g (ix1 e)) (fun e => b (ix1 e)) (i 3)

/-- A joint number in range is a joint. -/
def InRange (a : BitVec 32) : Prop := 0 ≤ a.toInt ∧ a.toInt < 17

end Cert.Spec

end
-- ==== Proof.SpecLaw.lean ====
import proofs.«429518_j69896297775214_2_alg».proof.Proof.Spec
import Idealize.ShloMosaic.Lib.IdealHost

/-!
  The two arrangements of the limb-embedding row agree on real data.

  * A limb coordinate: `Σ_j x_j · (δ_{j,child} − δ_{j,parent}) = x_child − x_parent` for real `x` and joint
    numbers below 17 (then the lookup's clamp and re-basing do nothing).
  * The projected direction: `(Σ_c v_c w_c) · (1 / L) = Σ_c (v_c / L) · w_c` for real `v`, `w` and a real
    `L ≠ 0`; the length `L = max (√(v·v)) ε` is such a real because `ε > 0`.
-/

open scoped BigOperators

noncomputable section

namespace Cert.Spec

open Idealize.ShloMosaic Idealize.ShloMosaic.ValueIdx Cert.LibReal

/-- The floor `ε` is a positive real. -/
theorem epsLen_pos : ∃ e : ℝ, 0 < e ∧ epsLen = (e : EReal) := by
  refine ⟨8796093 * (2 : ℝ) ^ (-43 : ℤ), by positivity, ?_⟩
  simp [epsLen, Ideal.ofBits, Ideal.ieee, -EReal.coe_mul]

/-- A joint number in range reads as itself, signed or unsigned. -/
theorem toInt_of_inRange {a : BitVec 32} (h : InRange a) : a.toInt = (a.toNat : ℤ) ∧ a.toNat < 17 := by
  obtain ⟨h0, h1⟩ := h
  rw [BitVec.toInt_eq_toNat_cond] at h0 h1 ⊢
  have := a.isLt
  split at h0 <;> split <;> omega

/-- In range, the lookup reads the joint with that number. -/
theorem refJoint_val {a : BitVec 32} (h : InRange a) : (refJoint a).val = a.toNat := by
  obtain ⟨e, hlt⟩ := toInt_of_inRange h
  have hsel : (if a.toInt < 0 then a + 17#32 else a) = a := if_neg (not_lt.mpr h.1)
  show min (if a.toInt < 0 then a + 17#32 else a).toInt.toNat 16 = a.toNat
  rw [hsel, e, Int.toNat_natCast]
  omega

/-- In range, the one-hot row has its one at that joint. -/
theorem oneHot_eq {a : BitVec 32} (h : InRange a) (j : Fin 17) :
    oneHot a j = (((if j = refJoint a then 1 else 0 : ℝ)) : EReal) := by
  have hv := refJoint_val h
  have hj := j.isLt
  unfold oneHot
  by_cases hc : j = refJoint a
  · have : a = BitVec.ofNat 32 j.val := by
      apply BitVec.eq_of_toNat_eq
      rw [BitVec.toNat_ofNat, hc, hv, Nat.mod_eq_of_lt a.isLt]
    rw [if_pos this, if_pos hc]; rfl
  · have : ¬ a = BitVec.ofNat 32 j.val := by
      intro e
      apply hc
      apply Fin.ext
      rw [hv, e, BitVec.toNat_ofNat, Nat.mod_eq_of_lt (by omega)]
    rw [if_neg this, if_neg hc]; rfl

/-- The sum against the selection row is the difference of the two joints, on real coordinates. -/
theorem limbK_eq_limbR (x : Fin 17 → EReal) (hx : ∀ j, IsReal (x j)) {pa ch : BitVec 32}
    (hpa : InRange pa) (hch : InRange ch) : limbK x pa ch = limbR x pa ch := by
  choose r hr using hx
  obtain rfl : x = fun j => (r j : EReal) := funext hr
  unfold limbK limbR selK
  simp only [oneHot_eq hpa, oneHot_eq hch, ← EReal.coe_sub, ← EReal.coe_mul, ← coe_sum]
  congr 1
  simp [mul_sub, Finset.sum_sub_distrib]

/-- The limb length of a real vector is a nonzero real. -/
theorem limbLen_real (v : Fin 3 → EReal) (hv : ∀ c, IsReal (v c)) : ∃ ℓ : ℝ, ℓ ≠ 0 ∧ limbLen v = (ℓ : EReal) := by
  choose a ha using hv
  obtain ⟨e, he, hε⟩ := epsLen_pos
  refine ⟨max (Real.sqrt (a 0 * a 0 + a 1 * a 1 + a 2 * a 2)) e, (lt_of_lt_of_le he (le_max_right _ _)).ne', ?_⟩
  unfold limbLen
  rw [ha 0, ha 1, ha 2, hε, ← EReal.coe_mul, ← EReal.coe_mul, ← EReal.coe_mul, ← EReal.coe_add, ← EReal.coe_add,
    Ideal.sqrt_coe,
    if_neg (not_lt.mpr (add_nonneg (add_nonneg (mul_self_nonneg _) (mul_self_nonneg _)) (mul_self_nonneg _)))]
  exact (EReal.coe_strictMono.monotone.map_max).symm

/-- Scaling the projection by `1 / L` is projecting the scaled coordinates, on real data. -/
theorem tokK_eq_tokR (v : Fin 3 → EReal) (w : Fin 3 → Fin 128 → EReal) (db lw lb : Fin 128 → EReal)
    (hv : ∀ c, IsReal (v c)) (hw : ∀ c e, IsReal (w c e)) : tokK v w db lw lb = tokR v w db lw lb := by
  funext d
  obtain ⟨ℓ, hℓ, hL⟩ := limbLen_real v hv
  unfold tokK tokR
  split
  · rename_i h
    congr 1
    obtain ⟨a0, h0⟩ := hv 0
    obtain ⟨a1, h1⟩ := hv 1
    obtain ⟨a2, h2⟩ := hv 2
    obtain ⟨b0, g0⟩ := hw 0 ⟨d.val, h⟩
    obtain ⟨b1, g1⟩ := hw 1 ⟨d.val, h⟩
    obtain ⟨b2, g2⟩ := hw 2 ⟨d.val, h⟩
    have hone : cOne = ((1 : ℝ) : EReal) := by
      show Ideal.ofBits .f32 0x3F800000#32 = _
      rw [Ideal.ofBits_one_f32]; rfl
    rw [Fin.sum_univ_three, hL, h0, h1, h2, g0, g1, g2, hone,
      Ideal.div_coe hℓ, Ideal.div_coe hℓ, Ideal.div_coe hℓ, Ideal.div_coe hℓ]
    simp only [← EReal.coe_mul, ← EReal.coe_add]
    congr 1
    ring
  · rfl

/-- The two arrangements of the whole result agree when the coordinates and the projection matrix are real and every
    parent and child number is a joint. -/
theorem arrangements_agree (xyz : Sxyz.Idx → EReal) (pa ch : Sidx.Idx → BitVec 32) (dw : Sdw.Idx → EReal) (db : Sv128.Idx → EReal)
    (lw : Sr128.Idx → EReal) (lb : Sv128.Idx → EReal) (g b : Sv256.Idx → EReal)
    (hx : ∀ i, IsReal (xyz i)) (hw : ∀ i, IsReal (dw i)) (hpa : ∀ l, InRange (pa l)) (hch : ∀ l, InRange (ch l)) :
    GK xyz pa ch dw db lw lb g b = GR xyz pa ch dw db lw lb g b := by
  funext i
  unfold GK GR
  have hlimb : (fun c : Fin 3 => limbK (fun j => xyz (ix4 (i 0) (i 1) j c)) (pa (ix1 (i 2))) (ch (ix1 (i 2))))
      = fun c : Fin 3 => limbR (fun j => xyz (ix4 (i 0) (i 1) j c)) (pa (ix1 (i 2))) (ch (ix1 (i 2))) :=
    funext fun c => limbK_eq_limbR _ (fun j => hx _) (hpa _) (hch _)
  rw [hlimb]
  congr 1
  exact tokK_eq_tokR _ _ _ _ _ (fun c => IsReal.sub (hx _) (hx _)) (fun c e => hw _)

end Cert.Spec

end
-- ==== Proof.KernelBody.lean ====
import proofs.«429518_j69896297775214_2_alg».proof.Proof.Gen.KernelIdeal.Value
import proofs.«429518_j69896297775214_2_alg».proof.Proof.Spec
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.KernelIdeal.Body

open Cert.KernelIdeal Cert.KernelIdeal.Gen Idealize.ShloMosaic Idealize.ShloMosaic.ValueIdx

/-! ## The contraction: a 256 × 17 matrix times a 17 × 16 one, read at one entry -/

/-- The left operand's row coordinate is the output's row. -/
theorem lhs_dot_0 (i : S256x16.Idx) (q : dot_S256x17_S17x16_S256x16_1_0_0_1_n_n.contr.Idx) :
    (dot_S256x17_S17x16_S256x16_1_0_0_1_n_n.lhsIdx i q 0).val = (i 0).val := by
  unfold DotDims.lhsIdx
  rw [dif_neg (show ¬(0 : Fin S256x17.rank) ∈ dot_S256x17_S17x16_S256x16_1_0_0_1_n_n.lhsBatch by decide),
    dif_pos (show (0 : Fin S256x17.rank) ∈ dot_S256x17_S17x16_S256x16_1_0_0_1_n_n.lhsNonContracting by decide)]
  rfl

/-- The left operand's column coordinate is the summation index. -/
theorem lhs_dot_1 (i : S256x16.Idx) (q : dot_S256x17_S17x16_S256x16_1_0_0_1_n_n.contr.Idx) :
    (dot_S256x17_S17x16_S256x16_1_0_0_1_n_n.lhsIdx i q 1).val = (q ⟨0, by decide⟩).val :=
  dot_S256x17_S17x16_S256x16_1_0_0_1_n_n.lhsIdx_val_of_single rfl i q

/-- The right operand's row coordinate is the summation index. -/
theorem rhs_dot_0 (i : S256x16.Idx) (q : dot_S256x17_S17x16_S256x16_1_0_0_1_n_n.contr.Idx) :
    (dot_S256x17_S17x16_S256x16_1_0_0_1_n_n.rhsIdx i q 0).val = (q ⟨0, by decide⟩).val :=
  dot_S256x17_S17x16_S256x16_1_0_0_1_n_n.rhsIdx_val_of_single rfl i q

/-- The right operand's column coordinate is the output's column. -/
theorem rhs_dot_1 (i : S256x16.Idx) (q : dot_S256x17_S17x16_S256x16_1_0_0_1_n_n.contr.Idx) :
    (dot_S256x17_S17x16_S256x16_1_0_0_1_n_n.rhsIdx i q 1).val = (i 1).val := by
  unfold DotDims.rhsIdx
  rw [dif_neg (show ¬(1 : Fin S17x16.rank) ∈ dot_S256x17_S17x16_S256x16_1_0_0_1_n_n.rhsBatch by decide),
    dif_pos (show (1 : Fin S17x16.rank) ∈ dot_S256x17_S17x16_S256x16_1_0_0_1_n_n.rhsNonContracting by decide)]
  rfl

/-- The product into a zero accumulator at entry `(t, l)` is `Σ_j A[t, j] · B[j, l]`. -/
theorem mm_apply (A : FVec Ideal S256x17 .f32) (B : FVec Ideal S17x16 .f32) (t : Fin 256) (l : Fin 16) :
    matmul dot_S256x17_S17x16_S256x16_1_0_0_1_n_n (some .fp32) A B (constant S256x16 .f32 0x00000000#32) (ix2 t l)
      = ∑ j : Fin 17, A (ix2 t j) * B (ix2 j l) := by
  simp only [matmul]
  rw [Ideal.matmul_constant_zero_apply,
    ← Equiv.sum_comp (ValueIdx.contrEquiv1 dot_S256x17_S17x16_S256x16_1_0_0_1_n_n 17 rfl rfl).symm]
  refine Finset.sum_congr rfl fun k _ => ?_
  have hk := ValueIdx.contrEquiv1_symm_val dot_S256x17_S17x16_S256x16_1_0_0_1_n_n 17 rfl rfl k
  have el : dot_S256x17_S17x16_S256x16_1_0_0_1_n_n.lhsIdx (ix2 t l)
      ((ValueIdx.contrEquiv1 dot_S256x17_S17x16_S256x16_1_0_0_1_n_n 17 rfl rfl).symm k) = ix2 t k :=
    funext fun a => Fin.ext (by
      match a with
      | ⟨0, _⟩ => exact lhs_dot_0 _ _
      | ⟨1, _⟩ => exact (lhs_dot_1 _ _).trans hk)
  have er : dot_S256x17_S17x16_S256x16_1_0_0_1_n_n.rhsIdx (ix2 t l)
      ((ValueIdx.contrEquiv1 dot_S256x17_S17x16_S256x16_1_0_0_1_n_n 17 rfl rfl).symm k) = ix2 k l :=
    funext fun a => Fin.ext (by
      match a with
      | ⟨0, _⟩ => exact (rhs_dot_0 _ _).trans hk
      | ⟨1, _⟩ => exact rhs_dot_1 _ _)
  rw [el, er]

/-- The loaded coordinates with the leading unit axis dropped: entry `(t, c, j)` is the load's `(0, t, c, j)`. -/
theorem pay2_apply (P0 : Vec Ideal S1x256x3x17 .f32) (t : Fin 256) (c : Fin 3) (j : Fin 17) :
    k0_pay2 (F := Ideal) P0 (ix3 t c j) = P0 (ix4 (0 : Fin 1) t c j) := by
  show shapeCast S256x3x17 P0 shapeCasts_S1x256x3x17_S256x3x17 (ix3 t c j) = _
  exact shapeCast_apply _ _ _ _ (by
    rw [Shape.rowMajor_val_four, Shape.rowMajor_val_three]
    show ((0 * 256 + t.val) * 3 + c.val) * 17 + j.val = (t.val * 3 + c.val) * 17 + j.val
    omega)

/-- The selection matrix transposed: entry `(j, l)` is the load's `(l, j)`. -/
theorem pay3_apply (P1 : Vec Ideal S16x17 .f32) (j : Fin 17) (l : Fin 16) :
    k0_pay3 (F := Ideal) P1 (ix2 j l) = P1 (ix2 l j) := by
  show transpose S17x16 [1, 0] (shapeCast S16x17 P1 shapeCasts_S16x17_S16x17) transposes_S16x17_p1_0_S17x16 (ix2 j l) = _
  refine (transpose_ix2_apply _ _ j l).trans ?_
  exact shapeCast_apply _ _ _ _ rfl

/-- Coordinate `c` of the loaded block as a 256 × 17 matrix: entry `(t, j)` is the load's `(0, t, c, j)`. -/
theorem coord_apply (P0 : Vec Ideal S1x256x3x17 .f32) (c : Fin 3) (h : S256x3x17.Slices ![0, c.val, 0] S256x1x17)
    (t : Fin 256) (j : Fin 17) :
    shapeCast S256x17 (extractStridedSlice S256x1x17 ![0, c.val, 0] (k0_pay2 (F := Ideal) P0) h) shapeCasts_S256x1x17_S256x17 (ix2 t j)
      = P0 (ix4 (0 : Fin 1) t c j) := by
  refine (shapeCast_apply _ _ _ (ix3 t (0 : Fin 1) j) (by
    rw [Shape.rowMajor_val_three, Shape.rowMajor_val_two]
    show (t.val * 1 + 0) * 17 + j.val = t.val * 17 + j.val
    omega)).trans ?_
  refine (extractStridedSlice_apply _ _ h _ (ix3 t c j) (fun a => by
    match a with
    | ⟨0, _⟩ => show t.val = 0 + t.val; omega
    | ⟨1, _⟩ => show c.val = c.val + 0; omega
    | ⟨2, _⟩ => show j.val = 0 + j.val; omega)).trans ?_
  exact pay2_apply P0 t c j

/-- The first limb coordinate at `(t, l)`: the joints' first coordinates summed against row `l` of the selection matrix. -/
theorem pay4_apply (P0 : Vec Ideal S1x256x3x17 .f32) (P1 : Vec Ideal S16x17 .f32) (t : Fin 256) (l : Fin 16) :
    k0_pay4 (F := Ideal) P0 P1 (ix2 t l) = ∑ j : Fin 17, P0 (ix4 (0 : Fin 1) t 0 j) * P1 (ix2 l j) := by
  refine (mm_apply _ _ t l).trans ?_
  refine Finset.sum_congr rfl fun j _ => ?_
  rw [pay3_apply]
  exact congrArg (· * _) (coord_apply P0 0 slices_S256x3x17_o0_0_0_S256x1x17 t j)

/-- The second limb coordinate at `(t, l)`. -/
theorem pay5_apply (P0 : Vec Ideal S1x256x3x17 .f32) (P1 : Vec Ideal S16x17 .f32) (t : Fin 256) (l : Fin 16) :
    k0_pay5 (F := Ideal) P0 P1 (ix2 t l) = ∑ j : Fin 17, P0 (ix4 (0 : Fin 1) t 1 j) * P1 (ix2 l j) := by
  refine (mm_apply _ _ t l).trans ?_
  refine Finset.sum_congr rfl fun j _ => ?_
  rw [pay3_apply]
  exact congrArg (· * _) (coord_apply P0 1 slices_S256x3x17_o0_1_0_S256x1x17 t j)

/-- The third limb coordinate at `(t, l)`. -/
theorem pay6_apply (P0 : Vec Ideal S1x256x3x17 .f32) (P1 : Vec Ideal S16x17 .f32) (t : Fin 256) (l : Fin 16) :
    k0_pay6 (F := Ideal) P0 P1 (ix2 t l) = ∑ j : Fin 17, P0 (ix4 (0 : Fin 1) t 2 j) * P1 (ix2 l j) := by
  refine (mm_apply _ _ t l).trans ?_
  refine Finset.sum_congr rfl fun j _ => ?_
  rw [pay3_apply]
  exact congrArg (· * _) (coord_apply P0 2 slices_S256x3x17_o0_2_0_S256x1x17 t j)

/-! ## The layout steps of the row, read at one entry -/

section Layout
variable {α : Type}

/-- A value per `(t, l)` spread along a row of 128: entry `(t, l, e)` is the value at `(t, l)`. -/
theorem col128_apply (x : S256x16.Idx → α) (t : Fin 256) (l : Fin 16) (e : Fin 128) :
    broadcastTo S256x16x128 (shapeCast S256x16x1 x shapeCasts_S256x16_S256x16x1) broadcasts_S256x16x1_S256x16x128 (ix3 t l e)
      = x (ix2 t l) := by
  refine (broadcastTo_apply _ _ _ (ix3 t l (0 : Fin 1)) (fun a => by
    match a with
    | ⟨0, _⟩ => show t.val = (if (256 : Nat) = 1 then 0 else t.val); rw [if_neg (by decide)]
    | ⟨1, _⟩ => show l.val = (if (16 : Nat) = 1 then 0 else l.val); rw [if_neg (by decide)]
    | ⟨2, _⟩ => show 0 = (if (1 : Nat) = 1 then 0 else e.val); rw [if_pos rfl])).trans ?_
  exact shapeCast_apply _ _ _ (ix2 t l) (by
    rw [Shape.rowMajor_val_two, Shape.rowMajor_val_three]
    show t.val * 16 + l.val = (t.val * 16 + l.val) * 1 + 0
    omega)

/-- A value per `(t, l, 0)` spread along a row of 256: entry `(t, l, d)` is the value at `(t, l, 0)`. -/
theorem spread256_apply (x : S256x16x1.Idx → α) (t : Fin 256) (l : Fin 16) (d : Fin 256) :
    broadcastTo S256x16x256 x broadcasts_S256x16x1_S256x16x256 (ix3 t l d) = x (ix3 t l (0 : Fin 1)) :=
  broadcastTo_apply _ _ _ (ix3 t l (0 : Fin 1)) (fun a => by
    match a with
    | ⟨0, _⟩ => show t.val = (if (256 : Nat) = 1 then 0 else t.val); rw [if_neg (by decide)]
    | ⟨1, _⟩ => show l.val = (if (16 : Nat) = 1 then 0 else l.val); rw [if_neg (by decide)]
    | ⟨2, _⟩ => show 0 = (if (1 : Nat) = 1 then 0 else d.val); rw [if_pos rfl])

/-- A value per `(t, l)` given a trailing unit axis: entry `(t, l, 0)` is the value at `(t, l)`. -/
theorem unit_apply (x : S256x16.Idx → α) (t : Fin 256) (l : Fin 16) :
    shapeCast S256x16x1 x shapeCasts_S256x16_S256x16x1 (ix3 t l (0 : Fin 1)) = x (ix2 t l) :=
  shapeCast_apply _ _ _ (ix2 t l) (by
    rw [Shape.rowMajor_val_two, Shape.rowMajor_val_three]
    show t.val * 16 + l.val = (t.val * 16 + l.val) * 1 + 0
    omega)

/-- A row of 128 spread over every `(t, l)`: entry `(t, l, e)` is the row's entry `e`. -/
theorem row128_apply (x : S1x128.Idx → α) (t : Fin 256) (l : Fin 16) (e : Fin 128) :
    broadcastTo S256x16x128 (shapeCast S1x1x128 x shapeCasts_S1x128_S1x1x128) broadcasts_S1x1x128_S256x16x128 (ix3 t l e)
      = x (ix2 (0 : Fin 1) e) := by
  refine (broadcastTo_apply _ _ _ (ix3 (0 : Fin 1) (0 : Fin 1) e) (fun a => by
    match a with
    | ⟨0, _⟩ => show 0 = (if (1 : Nat) = 1 then 0 else t.val); rw [if_pos rfl]
    | ⟨1, _⟩ => show 0 = (if (1 : Nat) = 1 then 0 else l.val); rw [if_pos rfl]
    | ⟨2, _⟩ => show e.val = (if (128 : Nat) = 1 then 0 else e.val); rw [if_neg (by decide)])).trans ?_
  exact shapeCast_apply _ _ _ (ix2 (0 : Fin 1) e) (by
    rw [Shape.rowMajor_val_two, Shape.rowMajor_val_three]
    show 0 * 128 + e.val = (0 * 1 + 0) * 128 + e.val
    omega)

/-- A cast of a row of 128 to its own shape changes nothing. -/
theorem id128_apply (x : S1x128.Idx → α) (j : S1x128.Idx) : shapeCast S1x128 x shapeCasts_S1x128_S1x128 j = x j :=
  shapeCast_apply _ _ _ _ rfl

/-- Row `c` of the 3 × 128 matrix as a row of 128: entry `(0, e)` is the matrix's `(c, e)`. -/
theorem wrow_apply (P2 : S3x128.Idx → α) (c : Fin 3) (h : S3x128.Slices ![c.val, 0] S1x128) (e : Fin 128) :
    extractStridedSlice S1x128 ![c.val, 0] P2 h (ix2 (0 : Fin 1) e) = P2 (ix2 c e) :=
  extractStridedSlice_apply _ _ h _ _ (fun a => by
    match a with
    | ⟨0, _⟩ => show c.val = c.val + 0; omega
    | ⟨1, _⟩ => show e.val = 0 + e.val; omega)

/-- Row 0 of the matrix. -/
theorem wrow0_apply (P2 : S3x128.Idx → α) (e : Fin 128) :
    extractStridedSlice S1x128 ![0, 0] P2 slices_S3x128_o0_0_S1x128 (ix2 (0 : Fin 1) e) = P2 (ix2 0 e) :=
  wrow_apply P2 0 slices_S3x128_o0_0_S1x128 e

/-- Row 1 of the matrix. -/
theorem wrow1_apply (P2 : S3x128.Idx → α) (e : Fin 128) :
    extractStridedSlice S1x128 ![1, 0] P2 slices_S3x128_o1_0_S1x128 (ix2 (0 : Fin 1) e) = P2 (ix2 1 e) :=
  wrow_apply P2 1 slices_S3x128_o1_0_S1x128 e

/-- Row 2 of the matrix. -/
theorem wrow2_apply (P2 : S3x128.Idx → α) (e : Fin 128) :
    extractStridedSlice S1x128 ![2, 0] P2 slices_S3x128_o2_0_S1x128 (ix2 (0 : Fin 1) e) = P2 (ix2 2 e) :=
  wrow_apply P2 2 slices_S3x128_o2_0_S1x128 e

end Layout

/-! ## The limb vector, its length, and the two halves of the row -/

/-- The limb vector at `(t, l)`: each coordinate of the joints summed against row `l` of the selection matrix. -/
abbrev limb (P0 : Vec Ideal S1x256x3x17 .f32) (P1 : Vec Ideal S16x17 .f32) (t : Fin 256) (l : Fin 16) : Fin 3 → EReal :=
  fun c => ∑ j : Fin 17, P0 (ix4 (0 : Fin 1) t c j) * P1 (ix2 l j)

/-- The floored limb lengths, one per `(t, l)`. -/
abbrev lenVec (P0 : Vec Ideal S1x256x3x17 .f32) (P1 : Vec Ideal S16x17 .f32) : FVec Ideal S256x16 .f32 :=
  maximumf (sqrt (addf (addf (mulf (k0_pay4 (F := Ideal) P0 P1) (k0_pay4 P0 P1)) (mulf (k0_pay5 P0 P1) (k0_pay5 P0 P1)))
    (mulf (k0_pay6 P0 P1) (k0_pay6 P0 P1)))) (broadcast S256x16 (Scalar.ofBits .f32 0x358637BD#32))

/-- The floored length at `(t, l)` is the length of the limb vector there. -/
theorem len_apply (P0 : Vec Ideal S1x256x3x17 .f32) (P1 : Vec Ideal S16x17 .f32) (t : Fin 256) (l : Fin 16) :
    lenVec P0 P1 (ix2 t l) = Cert.Spec.limbLen (limb P0 P1 t l) := by
  show max (Ideal.sqrt ((k0_pay4 (F := Ideal) P0 P1 (ix2 t l) * k0_pay4 (F := Ideal) P0 P1 (ix2 t l)
        + k0_pay5 (F := Ideal) P0 P1 (ix2 t l) * k0_pay5 (F := Ideal) P0 P1 (ix2 t l))
        + k0_pay6 (F := Ideal) P0 P1 (ix2 t l) * k0_pay6 (F := Ideal) P0 P1 (ix2 t l))) (Ideal.ofBits .f32 0x358637BD#32) = _
  rw [pay4_apply, pay5_apply, pay6_apply]
  rfl

/-- The reciprocal of the floored length at `(t, l)`. -/
theorem rlen_apply (P0 : Vec Ideal S1x256x3x17 .f32) (P1 : Vec Ideal S16x17 .f32) (t : Fin 256) (l : Fin 16) :
    divf (broadcast S256x16 (Scalar.ofBits .f32 0x3F800000#32)) (lenVec P0 P1) (ix2 t l)
      = Ideal.div Cert.Spec.cOne (Cert.Spec.limbLen (limb P0 P1 t l)) :=
  congrArg (Ideal.div _) (len_apply P0 P1 t l)

/-- The first half of the row at `(t, l, e)`: the limb vector projected through column `e` of the matrix, scaled by the
    reciprocal length, plus the bias. -/
theorem half0_apply (P0 : Vec Ideal S1x256x3x17 .f32) (P1 : Vec Ideal S16x17 .f32) (P2 : Vec Ideal S3x128 .f32)
    (P3 P4 P5 : Vec Ideal S1x128 .f32) (P6 P7 : Vec Ideal S1x256 .f32) (t : Fin 256) (l : Fin 16) (e : Fin 128) :
    Cert.KernelIdeal.Value.Cat8_0 (F := Ideal) P0 P1 P2 P3 P4 P5 P6 P7 (0 : Fin 2) (ix3 t l e)
      = (limb P0 P1 t l 0 * P2 (ix2 0 e) + limb P0 P1 t l 1 * P2 (ix2 1 e) + limb P0 P1 t l 2 * P2 (ix2 2 e))
          * Ideal.div Cert.Spec.cOne (Cert.Spec.limbLen (limb P0 P1 t l)) + P3 (ix2 (0 : Fin 1) e) := by
  show ((broadcastTo S256x16x128 (shapeCast S256x16x1 (k0_pay4 (F := Ideal) P0 P1) shapeCasts_S256x16_S256x16x1) broadcasts_S256x16x1_S256x16x128 (ix3 t l e)
          * broadcastTo S256x16x128 (shapeCast S1x1x128 (extractStridedSlice S1x128 ![0, 0] P2 slices_S3x128_o0_0_S1x128) shapeCasts_S1x128_S1x1x128) broadcasts_S1x1x128_S256x16x128 (ix3 t l e)
        + broadcastTo S256x16x128 (shapeCast S256x16x1 (k0_pay5 (F := Ideal) P0 P1) shapeCasts_S256x16_S256x16x1) broadcasts_S256x16x1_S256x16x128 (ix3 t l e)
          * broadcastTo S256x16x128 (shapeCast S1x1x128 (extractStridedSlice S1x128 ![1, 0] P2 slices_S3x128_o1_0_S1x128) shapeCasts_S1x128_S1x1x128) broadcasts_S1x1x128_S256x16x128 (ix3 t l e))
        + broadcastTo S256x16x128 (shapeCast S256x16x1 (k0_pay6 (F := Ideal) P0 P1) shapeCasts_S256x16_S256x16x1) broadcasts_S256x16x1_S256x16x128 (ix3 t l e)
          * broadcastTo S256x16x128 (shapeCast S1x1x128 (extractStridedSlice S1x128 ![2, 0] P2 slices_S3x128_o2_0_S1x128) shapeCasts_S1x128_S1x1x128) broadcasts_S1x1x128_S256x16x128 (ix3 t l e))
      * broadcastTo S256x16x128 (shapeCast S256x16x1 (divf (broadcast S256x16 (Scalar.ofBits .f32 0x3F800000#32)) (lenVec P0 P1)) shapeCasts_S256x16_S256x16x1) broadcasts_S256x16x1_S256x16x128 (ix3 t l e)
      + broadcastTo S256x16x128 (shapeCast S1x1x128 (shapeCast S1x128 P3 shapeCasts_S1x128_S1x128) shapeCasts_S1x128_S1x1x128) broadcasts_S1x1x128_S256x16x128 (ix3 t l e) = _
  rw [col128_apply, col128_apply, col128_apply, col128_apply, row128_apply, row128_apply, row128_apply, row128_apply,
    id128_apply, wrow0_apply, wrow1_apply, wrow2_apply, pay4_apply, pay5_apply, pay6_apply, rlen_apply]

/-- The second half of the row at `(t, l, e)`: the length times the row's entry `e`, plus the bias. -/
theorem half1_apply (P0 : Vec Ideal S1x256x3x17 .f32) (P1 : Vec Ideal S16x17 .f32) (P2 : Vec Ideal S3x128 .f32)
    (P3 P4 P5 : Vec Ideal S1x128 .f32) (P6 P7 : Vec Ideal S1x256 .f32) (t : Fin 256) (l : Fin 16) (e : Fin 128) :
    Cert.KernelIdeal.Value.Cat8_0 (F := Ideal) P0 P1 P2 P3 P4 P5 P6 P7 (1 : Fin 2) (ix3 t l e)
      = Cert.Spec.limbLen (limb P0 P1 t l) * P4 (ix2 (0 : Fin 1) e) + P5 (ix2 (0 : Fin 1) e) := by
  show broadcastTo S256x16x128 (shapeCast S256x16x1 (lenVec P0 P1) shapeCasts_S256x16_S256x16x1) broadcasts_S256x16x1_S256x16x128 (ix3 t l e)
        * broadcastTo S256x16x128 (shapeCast S1x1x128 P4 shapeCasts_S1x128_S1x1x128) broadcasts_S1x1x128_S256x16x128 (ix3 t l e)
      + broadcastTo S256x16x128 (shapeCast S1x1x128 (shapeCast S1x128 P5 shapeCasts_S1x128_S1x128) shapeCasts_S1x128_S1x1x128) broadcasts_S1x1x128_S256x16x128 (ix3 t l e) = _
  rw [col128_apply, row128_apply, row128_apply, id128_apply, len_apply]

/-! ## The row of 256 and its lane sums -/

/-- Two blocks of rows of 128 joined along the row: below position 128 the entry is the first block's. -/
theorem cat_apply_lt {α : Type} (A B : S256x16x128.Idx → α) (t : Fin 256) (l : Fin 16) (d : Fin 256) (h : d.val < 128) :
    concatenate S256x16x256 2 [⟨S256x16x128, A⟩, ⟨S256x16x128, B⟩] concatenates_S256x16x128_S256x16x128_S256x16x256_d2 (ix3 t l d)
      = A (ix3 t l ⟨d.val, h⟩) :=
  concatenate_pair_apply_left (2 : Fin 3) A B _ (ix3 t l d) rfl (ix3 t l ⟨d.val, h⟩) (fun b => by
    match b with
    | ⟨0, _⟩ => rfl
    | ⟨1, _⟩ => rfl
    | ⟨2, _⟩ => rfl)

/-- … and from position 128 on it is the second block's, 128 positions back. -/
theorem cat_apply_ge {α : Type} (A B : S256x16x128.Idx → α) (t : Fin 256) (l : Fin 16) (d : Fin 256) (h : ¬d.val < 128) :
    concatenate S256x16x256 2 [⟨S256x16x128, A⟩, ⟨S256x16x128, B⟩] concatenates_S256x16x128_S256x16x128_S256x16x256_d2 (ix3 t l d)
      = B (ix3 t l ⟨d.val - 128, by have := d.isLt; omega⟩) :=
  concatenate_pair_apply_right (2 : Fin 3) A B _ (ix3 t l d) rfl rfl (ix3 t l ⟨d.val - 128, by have := d.isLt; omega⟩)
    (fun b hb => by
      match b with
      | ⟨0, _⟩ => rfl
      | ⟨1, _⟩ => rfl
      | ⟨2, _⟩ => exact absurd rfl hb)
    (by show d.val - 128 + 128 = d.val; omega)

/-- The sum along each row of 256. -/
abbrev laneSum (X : FVec Ideal S256x16x256 .f32) : FVec Ideal S256x16 .f32 :=
  multiReduction .add [2] S256x16 X 0x00000000#32 reduces_S256x16x256_S256x16 (.inl rfl) rfl

/-- The lane sum at `(t, l)` is the sum of the row's 256 entries. -/
theorem laneSum_apply (X : FVec Ideal S256x16x256 .f32) (t : Fin 256) (l : Fin 16) :
    laneSum X (ix2 t l) = ∑ k : Fin 256, X (ix3 t l k) := by
  refine (Ideal.multiReduction_add_single X _ reduces_S256x16x256_S256x16 _ _ (ix2 t l)).trans ?_
  refine Finset.sum_congr rfl fun k _ => congrArg X (funext fun a => Fin.ext ?_)
  match a with
  | ⟨0, _⟩ => rfl
  | ⟨1, _⟩ => rfl
  | ⟨2, _⟩ => rfl

/-- The row less its mean, the mean being the lane sum over 256. -/
abbrev cen (X : FVec Ideal S256x16x256 .f32) : FVec Ideal S256x16x256 .f32 :=
  subf X (broadcastTo S256x16x256 (divf (shapeCast S256x16x1 (laneSum X) shapeCasts_S256x16_S256x16x1)
    (broadcast S256x16x1 (Scalar.ofBits .f32 0x43800000#32))) broadcasts_S256x16x1_S256x16x256)

/-- Where the row at `(t, l)` is `tok`, its lane sum is `Σ_k tok k`. -/
theorem laneSum_eq (X : FVec Ideal S256x16x256 .f32) (tok : Fin 256 → EReal) (t : Fin 256) (l : Fin 16)
    (hX : ∀ k, X (ix3 t l k) = tok k) : laneSum X (ix2 t l) = ∑ k, tok k :=
  (laneSum_apply X t l).trans (Finset.sum_congr rfl fun k _ => hX k)

/-- … the centred row at `(t, l, d)` is `tok d` less the row's mean, -/
theorem cen_eq (X : FVec Ideal S256x16x256 .f32) (tok : Fin 256 → EReal) (t : Fin 256) (l : Fin 16)
    (hX : ∀ k, X (ix3 t l k) = tok k) (d : Fin 256) : cen X (ix3 t l d) = tok d - Cert.Spec.rowMean tok := by
  show X (ix3 t l d) - broadcastTo S256x16x256 (divf (shapeCast S256x16x1 (laneSum X) shapeCasts_S256x16_S256x16x1)
    (broadcast S256x16x1 (Scalar.ofBits .f32 0x43800000#32))) broadcasts_S256x16x1_S256x16x256 (ix3 t l d) = _
  rw [spread256_apply]
  show X (ix3 t l d) - Ideal.div (shapeCast S256x16x1 (laneSum X) shapeCasts_S256x16_S256x16x1 (ix3 t l (0 : Fin 1)))
    (Ideal.ofBits .f32 0x43800000#32) = _
  rw [unit_apply, laneSum_eq X tok t l hX, hX d]
  rfl

/-- … and the lane sum of the centred row's squares is the sum of the squared deviations. -/
theorem varSum_eq (X : FVec Ideal S256x16x256 .f32) (tok : Fin 256 → EReal) (t : Fin 256) (l : Fin 16)
    (hX : ∀ k, X (ix3 t l k) = tok k) :
    laneSum (mulf (cen X) (cen X)) (ix2 t l)
      = ∑ k, (tok k - Cert.Spec.rowMean tok) * (tok k - Cert.Spec.rowMean tok) := by
  rw [laneSum_apply]
  refine Finset.sum_congr rfl fun k _ => ?_
  show cen X (ix3 t l k) * cen X (ix3 t l k) = _
  rw [cen_eq X tok t l hX k]

/-! ## The block's entry -/

/-- The row before normalisation at `(t, l)`, as a function of the position. -/
abbrev tokAt (P0 : Vec Ideal S1x256x3x17 .f32) (P1 : Vec Ideal S16x17 .f32) (P2 : Vec Ideal S3x128 .f32)
    (P3 P4 P5 : Vec Ideal S1x128 .f32) (t : Fin 256) (l : Fin 16) : Fin 256 → EReal :=
  Cert.Spec.tokK (limb P0 P1 t l) (fun c e => P2 (ix2 c e)) (fun e => P3 (ix2 (0 : Fin 1) e))
    (fun e => P4 (ix2 (0 : Fin 1) e)) (fun e => P5 (ix2 (0 : Fin 1) e))

/-- The two halves joined. -/
abbrev row (P0 : Vec Ideal S1x256x3x17 .f32) (P1 : Vec Ideal S16x17 .f32) (P2 : Vec Ideal S3x128 .f32)
    (P3 P4 P5 : Vec Ideal S1x128 .f32) (P6 P7 : Vec Ideal S1x256 .f32) : FVec Ideal S256x16x256 .f32 :=
  concatenate S256x16x256 2 [⟨S256x16x128, Cert.KernelIdeal.Value.Cat8_0 (F := Ideal) P0 P1 P2 P3 P4 P5 P6 P7 (0 : Fin 2)⟩,
    ⟨S256x16x128, Cert.KernelIdeal.Value.Cat8_0 (F := Ideal) P0 P1 P2 P3 P4 P5 P6 P7 (1 : Fin 2)⟩]
    concatenates_S256x16x128_S256x16x128_S256x16x256_d2

/-- The joined row at `(t, l, d)` is the row before normalisation at position `d`. -/
theorem row_apply (P0 : Vec Ideal S1x256x3x17 .f32) (P1 : Vec Ideal S16x17 .f32) (P2 : Vec Ideal S3x128 .f32)
    (P3 P4 P5 : Vec Ideal S1x128 .f32) (P6 P7 : Vec Ideal S1x256 .f32) (t : Fin 256) (l : Fin 16) (d : Fin 256) :
    row P0 P1 P2 P3 P4 P5 P6 P7 (ix3 t l d) = tokAt P0 P1 P2 P3 P4 P5 t l d := by
  by_cases h : d.val < 128
  · refine (cat_apply_lt _ _ t l d h).trans ?_
    rw [half0_apply]
    show _ = Cert.Spec.tokK _ _ _ _ _ d
    unfold Cert.Spec.tokK
    rw [dif_pos h]
  · refine (cat_apply_ge _ _ t l d h).trans ?_
    rw [half1_apply]
    show _ = Cert.Spec.tokK _ _ _ _ _ d
    unfold Cert.Spec.tokK
    rw [dif_neg h]

/-- The block entry's own position in the joined row: the half its position falls in, read at the position within it. -/
theorem head_apply (P0 : Vec Ideal S1x256x3x17 .f32) (P1 : Vec Ideal S16x17 .f32) (P2 : Vec Ideal S3x128 .f32)
    (P3 P4 P5 : Vec Ideal S1x128 .f32) (P6 P7 : Vec Ideal S1x256 .f32) (t : Fin 256) (l : Fin 16) (d : Fin 256) :
    Cert.KernelIdeal.Value.Cat8_0 (F := Ideal) P0 P1 P2 P3 P4 P5 P6 P7
        (Cert.KernelIdeal.Value.csel8_0 (ix4 (0 : Fin 1) t l d)) (Cert.KernelIdeal.Value.ix8_0 (ix4 (0 : Fin 1) t l d))
      = tokAt P0 P1 P2 P3 P4 P5 t l d := by
  by_cases h : d.val < 128
  · have hc : Cert.KernelIdeal.Value.csel8_0 (ix4 (0 : Fin 1) t l d) = (0 : Fin 2) :=
      Fin.ext (by show d.val / 128 = 0; omega)
    have hi : Cert.KernelIdeal.Value.ix8_0 (ix4 (0 : Fin 1) t l d) = ix3 t l ⟨d.val, h⟩ := funext fun a => Fin.ext (by
      match a with
      | ⟨0, _⟩ => rfl
      | ⟨1, _⟩ => rfl
      | ⟨2, _⟩ => exact Nat.mod_eq_of_lt h)
    rw [hc, hi, half0_apply]
    show _ = Cert.Spec.tokK _ _ _ _ _ d
    unfold Cert.Spec.tokK
    rw [dif_pos h]
  · have hc : Cert.KernelIdeal.Value.csel8_0 (ix4 (0 : Fin 1) t l d) = (1 : Fin 2) :=
      Fin.ext (by show d.val / 128 = 1; have := d.isLt; omega)
    have hi : Cert.KernelIdeal.Value.ix8_0 (ix4 (0 : Fin 1) t l d) = ix3 t l ⟨d.val - 128, by have := d.isLt; omega⟩ :=
      funext fun a => Fin.ext (by
        match a with
        | ⟨0, _⟩ => rfl
        | ⟨1, _⟩ => rfl
        | ⟨2, _⟩ => show d.val % 128 = d.val - 128; have := d.isLt; omega)
    rw [hc, hi, half1_apply]
    show _ = Cert.Spec.tokK _ _ _ _ _ d
    unfold Cert.Spec.tokK
    rw [dif_neg h]

/-- What the body leaves at entry (time `t`, limb `l`, position `d`) of its output block, from the loaded blocks:
    the layer norm of the row built from the limb coordinates `Σ_j x[t, c, j] · sel[l, j]`. -/
theorem block_apply (P0 : Vec Ideal S1x256x3x17 .f32) (P1 : Vec Ideal S16x17 .f32) (P2 : Vec Ideal S3x128 .f32)
    (P3 P4 P5 : Vec Ideal S1x128 .f32) (P6 P7 : Vec Ideal S1x256 .f32) (t : Fin 256) (l : Fin 16) (d : Fin 256) :
    Cert.KernelIdeal.Value.E8 (F := Ideal) P0 P1 P2 P3 P4 P5 P6 P7 (ix4 (0 : Fin 1) t l d)
      = Cert.Spec.lnRow
          (Cert.Spec.tokK (fun c => ∑ j : Fin 17, P0 (ix4 (0 : Fin 1) t c j) * P1 (ix2 l j))
            (fun c e => P2 (ix2 c e)) (fun e => P3 (ix2 (0 : Fin 1) e)) (fun e => P4 (ix2 (0 : Fin 1) e))
            (fun e => P5 (ix2 (0 : Fin 1) e)))
          (fun e => P6 (ix2 (0 : Fin 1) e)) (fun e => P7 (ix2 (0 : Fin 1) e)) d := by
  have hrow : ∀ k, row P0 P1 P2 P3 P4 P5 P6 P7 (ix3 t l k) = tokAt P0 P1 P2 P3 P4 P5 t l k :=
    fun k => row_apply P0 P1 P2 P3 P4 P5 P6 P7 t l k
  have e1 : Cert.KernelIdeal.Value.ix8_1 (ix4 (0 : Fin 1) t l d) = ix2 t l := funext fun a => Fin.ext (by
    match a with
    | ⟨0, _⟩ => rfl
    | ⟨1, _⟩ => rfl)
  have e2 : Cert.KernelIdeal.Value.ix8_2 (ix4 (0 : Fin 1) t l d) = ix2 t l := funext fun a => Fin.ext (by
    match a with
    | ⟨0, _⟩ => rfl
    | ⟨1, _⟩ => rfl)
  have e3 : Cert.KernelIdeal.Value.ix8_3 (ix4 (0 : Fin 1) t l d) = ix2 (0 : Fin 1) d := funext fun a => Fin.ext (by
    match a with
    | ⟨0, _⟩ => rfl
    | ⟨1, _⟩ => rfl)
  have e4 : Cert.KernelIdeal.Value.ix8_4 (ix4 (0 : Fin 1) t l d) = ix2 (0 : Fin 1) d := funext fun a => Fin.ext (by
    match a with
    | ⟨0, _⟩ => rfl
    | ⟨1, _⟩ => rfl)
  show (Cert.KernelIdeal.Value.Cat8_0 (F := Ideal) P0 P1 P2 P3 P4 P5 P6 P7
            (Cert.KernelIdeal.Value.csel8_0 (ix4 (0 : Fin 1) t l d)) (Cert.KernelIdeal.Value.ix8_0 (ix4 (0 : Fin 1) t l d))
          - Ideal.div (laneSum (row P0 P1 P2 P3 P4 P5 P6 P7) (Cert.KernelIdeal.Value.ix8_1 (ix4 (0 : Fin 1) t l d)))
              (Ideal.ofBits .f32 0x43800000#32))
        * Ideal.rsqrt (Ideal.div (laneSum (mulf (cen (row P0 P1 P2 P3 P4 P5 P6 P7)) (cen (row P0 P1 P2 P3 P4 P5 P6 P7)))
              (Cert.KernelIdeal.Value.ix8_2 (ix4 (0 : Fin 1) t l d))) (Ideal.ofBits .f32 0x43800000#32)
            + Ideal.ofBits .f32 0x3727C5AC#32)
        * P6 (Cert.KernelIdeal.Value.ix8_3 (ix4 (0 : Fin 1) t l d))
      + P7 (Cert.KernelIdeal.Value.ix8_4 (ix4 (0 : Fin 1) t l d)) = _
  rw [head_apply, e1, e2, e3, e4, laneSum_eq _ _ t l hrow, varSum_eq _ _ t l hrow]
  rfl

end Cert.KernelIdeal.Body

end
-- ==== Proof.KernelHost.lean ====
import proofs.«429518_j69896297775214_2_alg».proof.Proof.Gen.KernelIdeal.Frame
import proofs.«429518_j69896297775214_2_alg».proof.Proof.Spec
import Idealize.ShloMosaic.Lib.ValueIdx
import Idealize.ShloMosaic.Lib.ValueLayout
import Idealize.ShloMosaic.Lib.Pipeline.Value
import Idealize.ShloMosaic.Lib.StableHlo.Run
import Idealize.ShloMosaic.Lib.StableHlo.Predicate

noncomputable section

namespace Cert.KernelIdeal.HostVal

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The coordinates array the region reads is the argument with its last two axes exchanged. -/
theorem V_v3_apply (c : Dev nD) (b : Fin 32) (t : Fin 512) (k : Fin 3) (j : Fin 17) :
    (V m c main_v3 : S32x512x3x17.Idx → EReal) (ix4 b t k j)
      = (m ((c : Thread nD τ).loc main_arg0) : S32x512x17x3.Idx → EReal) (ix4 b t j k) := by
  -- what the array holds: the transpose of the argument
  have e1 : (V m c main_v3 : S32x512x3x17.Idx → EReal)
      = transpose S32x512x3x17 [0, 1, 3, 2] (m ((c : Thread nD τ).loc main_arg0) : S32x512x17x3.Idx → EReal)
          transposes_S32x512x17x3_S32x512x3x17_0_1_3_2 := by
    dsimp only [Gen.V]
    simp only [Gen.hostOps0, Gen.hostOps0_1, Gen.hostOps0_2, List.flatten_cons, List.flatten_nil, List.append_nil,
      List.cons_append, List.nil_append]
    after_results <;> rfl
  rw [e1]
  -- result axis 2 is source axis 3 and result axis 3 is source axis 2
  refine transpose_apply _ _ _ _ _ ?_
  intro a
  fin_cases a <;> rfl

/-- One comparison matrix read at an entry: the joint number of row `l` compared with the column number `j`,
    taken as a float, is the one-hot row's entry. -/
theorem oneHot_read (a : S16.Idx → BitVec 32) (l : Fin 16) (j : Fin 17) :
    (uitofp (F := Ideal) .f32 (cmpi .eq
        (broadcastInDim S16x17 ![0, 1] bcast_S16x1_S16x17_0_1 (broadcastInDim S16x1 ![0] bcast_S16_S16x1_0 a))
        (broadcastInDim S16x17 ![0, 1] bcast_S1x17_S16x17_0_1 (iotaInDim S1x17 32 1))) : S16x17.Idx → EReal) (ix2 l j)
      = Cert.Spec.oneHot (a (ix1 l)) j := by
  -- the column of joint numbers, spread along each row
  have h1 : broadcastInDim S16x17 ![0, 1] bcast_S16x1_S16x17_0_1 (broadcastInDim S16x1 ![0] bcast_S16_S16x1_0 a) (ix2 l j)
      = a (ix1 l) := by
    refine (broadcastInDim_apply _ _ _ (ix2 l j) (ix2 l (0 : Fin 1)) ?_).trans ?_
    · intro d; fin_cases d <;> rfl
    · refine broadcastInDim_apply _ _ _ (ix2 l (0 : Fin 1)) (ix1 l) ?_
      intro d; fin_cases d; rfl
  -- the row of column numbers 0 … 16, spread down each column
  have h2 : broadcastInDim S16x17 ![0, 1] bcast_S1x17_S16x17_0_1 (iotaInDim S1x17 32 1) (ix2 l j)
      = BitVec.ofNat 32 j.val := by
    refine (broadcastInDim_apply _ _ _ (ix2 l j) (ix2 (0 : Fin 1) j) ?_).trans ?_
    · intro d; fin_cases d <;> rfl
    · rfl
  -- the entry is the comparison bit read as a natural number
  show (((IntOp.cmpi .eq
        (broadcastInDim S16x17 ![0, 1] bcast_S16x1_S16x17_0_1 (broadcastInDim S16x1 ![0] bcast_S16_S16x1_0 a) (ix2 l j))
        (broadcastInDim S16x17 ![0, 1] bcast_S1x17_S16x17_0_1 (iotaInDim S1x17 32 1) (ix2 l j))).toNat : ℝ) : EReal) = _
  rw [h1, h2]
  unfold Cert.Spec.oneHot
  by_cases h : a (ix1 l) = BitVec.ofNat 32 j.val
  · rw [if_pos h, StableHlo.Predicate.cmpi_eq_iff.2 h]
    norm_num
  · rw [if_neg h, eq_zero_of_ne_one (fun hc => h (StableHlo.Predicate.cmpi_eq_iff.1 hc))]
    norm_num

/-- The selection matrix the region reads: row `l` is the child's one-hot row minus the parent's. -/
theorem V_v2_apply (c : Dev nD) (l : Fin 16) (j : Fin 17) :
    (V m c main_v2 : S16x17.Idx → EReal) (ix2 l j)
      = Cert.Spec.selK ((m ((c : Thread nD τ).loc main_arg1) : S16.Idx → BitVec 32) (ix1 l))
          ((m ((c : Thread nD τ).loc main_arg2) : S16.Idx → BitVec 32) (ix1 l)) j := by
  -- what the array holds: the child's comparison matrix minus the parent's, both as floats
  have e1 : (V m c main_v2 : S16x17.Idx → EReal)
      = subf (F := Ideal)
          (uitofp (F := Ideal) .f32 (cmpi .eq
            (broadcastInDim S16x17 ![0, 1] bcast_S16x1_S16x17_0_1
              (broadcastInDim S16x1 ![0] bcast_S16_S16x1_0 (m ((c : Thread nD τ).loc main_arg2) : S16.Idx → BitVec 32)))
            (broadcastInDim S16x17 ![0, 1] bcast_S1x17_S16x17_0_1 (iotaInDim S1x17 32 1))))
          (uitofp (F := Ideal) .f32 (cmpi .eq
            (broadcastInDim S16x17 ![0, 1] bcast_S16x1_S16x17_0_1
              (broadcastInDim S16x1 ![0] bcast_S16_S16x1_0 (m ((c : Thread nD τ).loc main_arg1) : S16.Idx → BitVec 32)))
            (broadcastInDim S16x17 ![0, 1] bcast_S1x17_S16x17_0_1 (iotaInDim S1x17 32 1)))) := by
    dsimp only [Gen.V]
    simp only [Gen.hostOps0, Gen.hostOps0_1, Gen.hostOps0_2, List.flatten_cons, List.flatten_nil, List.append_nil,
      List.cons_append, List.nil_append]
    after_results <;> rfl
  rw [e1, subf_apply, oneHot_read, oneHot_read]
  rfl

/-- The direction bias as a one-row matrix. -/
theorem V_v4_apply (c : Dev nD) (e : Fin 128) :
    (V m c main_v4 : S1x128.Idx → EReal) (ix2 (0 : Fin 1) e)
      = (m ((c : Thread nD τ).loc main_arg4) : S128.Idx → EReal) (ix1 e) := by
  have e1 : (V m c main_v4 : S1x128.Idx → EReal)
      = shapeCast S1x128 (m ((c : Thread nD τ).loc main_arg4) : S128.Idx → EReal) shapeCasts_S128_S1x128 := by
    dsimp only [Gen.V]
    simp only [Gen.hostOps0, Gen.hostOps0_1, Gen.hostOps0_2, List.flatten_cons, List.flatten_nil, List.append_nil,
      List.cons_append, List.nil_append]
    after_results <;> rfl
  rw [e1]
  exact shapeCast_a_1a_apply _ _ _ _

/-- The length bias as a one-row matrix. -/
theorem V_v5_apply (c : Dev nD) (e : Fin 128) :
    (V m c main_v5 : S1x128.Idx → EReal) (ix2 (0 : Fin 1) e)
      = (m ((c : Thread nD τ).loc main_arg6) : S128.Idx → EReal) (ix1 e) := by
  have e1 : (V m c main_v5 : S1x128.Idx → EReal)
      = shapeCast S1x128 (m ((c : Thread nD τ).loc main_arg6) : S128.Idx → EReal) shapeCasts_S128_S1x128 := by
    dsimp only [Gen.V]
    simp only [Gen.hostOps0, Gen.hostOps0_1, Gen.hostOps0_2, List.flatten_cons, List.flatten_nil, List.append_nil,
      List.cons_append, List.nil_append]
    after_results <;> rfl
  rw [e1]
  exact shapeCast_a_1a_apply _ _ _ _

/-- The gain as a one-row matrix. -/
theorem V_v6_apply (c : Dev nD) (e : Fin 256) :
    (V m c main_v6 : S1x256.Idx → EReal) (ix2 (0 : Fin 1) e)
      = (m ((c : Thread nD τ).loc main_arg7) : S256.Idx → EReal) (ix1 e) := by
  have e1 : (V m c main_v6 : S1x256.Idx → EReal)
      = shapeCast S1x256 (m ((c : Thread nD τ).loc main_arg7) : S256.Idx → EReal) shapeCasts_S256_S1x256 := by
    dsimp only [Gen.V]
    simp only [Gen.hostOps0, Gen.hostOps0_1, Gen.hostOps0_2, List.flatten_cons, List.flatten_nil, List.append_nil,
      List.cons_append, List.nil_append]
    after_results <;> rfl
  rw [e1]
  exact shapeCast_a_1a_apply _ _ _ _

/-- The offset as a one-row matrix. -/
theorem V_v7_apply (c : Dev nD) (e : Fin 256) :
    (V m c main_v7 : S1x256.Idx → EReal) (ix2 (0 : Fin 1) e)
      = (m ((c : Thread nD τ).loc main_arg8) : S256.Idx → EReal) (ix1 e) := by
  have e1 : (V m c main_v7 : S1x256.Idx → EReal)
      = shapeCast S1x256 (m ((c : Thread nD τ).loc main_arg8) : S256.Idx → EReal) shapeCasts_S256_S1x256 := by
    dsimp only [Gen.V]
    simp only [Gen.hostOps0, Gen.hostOps0_1, Gen.hostOps0_2, List.flatten_cons, List.flatten_nil, List.append_nil,
      List.cons_append, List.nil_append]
    after_results <;> rfl
  rw [e1]
  exact shapeCast_a_1a_apply _ _ _ _

end Cert.KernelIdeal.HostVal

end
-- ==== Proof.KernelFinal.lean ====
import proofs.«429518_j69896297775214_2_alg».proof.Proof.Gen.KernelIdeal.Value
import proofs.«429518_j69896297775214_2_alg».proof.Proof.KernelBody
import proofs.«429518_j69896297775214_2_alg».proof.Proof.KernelHost
import proofs.«429518_j69896297775214_2_alg».proof.Proof.Spec
import Idealize.ShloMosaic.Lib.Pipeline.Value
import Idealize.ShloMosaic.Lib.ValueIdx

open scoped BigOperators

noncomputable section

namespace Cert.KernelIdeal.Final

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz2 : (![0, 0] : Fin 2 → Nat) = fun _ => 0 := funext fun a => by fin_cases a <;> rfl

/-- The result array as one function of the arguments' launch contents. -/
abbrev GKm (c : Dev nD) : S32x512x16x256.Idx → EReal :=
  Cert.Spec.GK (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-- The printed index maps over the 64 grid points: the coordinates window moves with the output window on the batch and
    time-tile axes; every other block index is zero. -/
theorem idx_facts : ∀ t : Fin cfg0.N,
      win0_0.index t (0 : Fin 4) = win0_8.index t (0 : Fin 4) ∧ win0_0.index t (1 : Fin 4) = win0_8.index t (1 : Fin 4)
    ∧ win0_0.index t (2 : Fin 4) = 0 ∧ win0_0.index t (3 : Fin 4) = 0
    ∧ win0_8.index t (2 : Fin 4) = 0 ∧ win0_8.index t (3 : Fin 4) = 0
    ∧ win0_8.index t (0 : Fin 4) ≤ 31 ∧ win0_8.index t (1 : Fin 4) ≤ 1
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- Every (batch, time tile) pair is some grid point's output block. -/
theorem idx_onto : ∀ (q0 : Fin 32) (q1 : Fin 2), ∃ t : Fin cfg0.N, win0_8.index t = ![q0.val, q1.val, 0, 0] :=
  (by decide +kernel : ∀ (q0 : Fin 32) (q1 : Fin 2), ∃ t : Fin grid0.N, win0_8.index t = ![q0.val, q1.val, 0, 0])

/-- Equal ingredients give equal rows. -/
theorem lnRow_tokK_congr {v v' : Fin 3 → EReal} {w w' : Fin 3 → Fin 128 → EReal} {db db' lw lw' lb lb' : Fin 128 → EReal}
    {g g' b b' : Fin 256 → EReal} {d d' : Fin 256} (hv : v = v') (hw : w = w') (hdb : db = db') (hlw : lw = lw') (hlb : lb = lb')
    (hg : g = g') (hb : b = b') (hd : d = d') :
    Cert.Spec.lnRow (Cert.Spec.tokK v w db lw lb) g b d = Cert.Spec.lnRow (Cert.Spec.tokK v' w' db' lw' lb') g' b' d' := by
  subst hv hw hdb hlw hlb hg hb hd; rfl

/-- The input windows' blocks at a grid point, each at its literal vector type. -/
abbrev B0 (c : Dev nD) (t : Fin cfg0.N) : Vec Ideal S1x256x3x17 .f32 := iblk m c 0 t
abbrev B1 (c : Dev nD) (t : Fin cfg0.N) : Vec Ideal S16x17 .f32 := iblk m c 1 t
abbrev B2 (c : Dev nD) (t : Fin cfg0.N) : Vec Ideal S3x128 .f32 := iblk m c 2 t
abbrev B3 (c : Dev nD) (t : Fin cfg0.N) : Vec Ideal S1x128 .f32 := iblk m c 3 t
abbrev B4 (c : Dev nD) (t : Fin cfg0.N) : Vec Ideal S1x128 .f32 := iblk m c 4 t
abbrev B5 (c : Dev nD) (t : Fin cfg0.N) : Vec Ideal S1x128 .f32 := iblk m c 5 t
abbrev B6 (c : Dev nD) (t : Fin cfg0.N) : Vec Ideal S1x256 .f32 := iblk m c 6 t
abbrev B7 (c : Dev nD) (t : Fin cfg0.N) : Vec Ideal S1x256 .f32 := iblk m c 7 t

/-- The coordinates window's block at a point, read at (time, coordinate, joint): the argument at that batch, that time of
    the tile, that joint and coordinate. -/
theorem blk0_apply (c : Dev nD) (t : Fin cfg0.N) (t' : Fin 256) (k : Fin 3) (j : Fin 17) (b : Fin 32) (tt : Fin 512)
    (hb : b.val = win0_8.index t (0 : Fin 4)) (htt : tt.val = win0_8.index t (1 : Fin 4) * 256 + t'.val) :
    B0 m c t (ix4 (0 : Fin 1) t' k j) = ((m ((c : Thread nD τ).loc main_arg0)) : S32x512x17x3.Idx → EReal) (ix4 b tt j k) := by
  obtain ⟨e0, e1, e2, e3, -⟩ := idx_facts t
  show (V m c main_v3 : S32x512x3x17.Idx → EReal) (((cfg0.win 0).blk t).view.emb (ix4 (0 : Fin 1) t' k j)) = _
  rw [← HostVal.V_v3_apply m c b tt k j]
  congr 1
  funext a; apply Fin.ext
  match a with
  | ⟨0, _⟩ => show win0_0.index t (0 : Fin 4) * 1 + 1 * 0 = b.val; omega
  | ⟨1, _⟩ => show win0_0.index t (1 : Fin 4) * 256 + 1 * t'.val = tt.val; omega
  | ⟨2, _⟩ => show win0_0.index t (2 : Fin 4) * 3 + 1 * k.val = k.val; omega
  | ⟨3, _⟩ => show win0_0.index t (3 : Fin 4) * 17 + 1 * j.val = j.val; omega

/-- The selection window's block is the whole selection matrix. -/
theorem blk1_apply (c : Dev nD) (t : Fin cfg0.N) (l : Fin 16) (j : Fin 17) :
    B1 m c t (ix2 l j) = Cert.Spec.selK (((m ((c : Thread nD τ).loc main_arg1)) : S16.Idx → BitVec 32) (ix1 l)) (((m ((c : Thread nD τ).loc main_arg2)) : S16.Idx → BitVec 32) (ix1 l)) j := by
  obtain ⟨-, -, -, -, -, -, -, -, e0, e1, -⟩ := idx_facts t
  show (V m c main_v2 : S16x17.Idx → EReal) (((cfg0.win 1).blk t).view.emb (ix2 l j)) = _
  rw [← HostVal.V_v2_apply m c l j]
  congr 1
  funext a; apply Fin.ext
  match a with
  | ⟨0, _⟩ => show win0_1.index t (0 : Fin 2) * 16 + 1 * l.val = l.val; omega
  | ⟨1, _⟩ => show win0_1.index t (1 : Fin 2) * 17 + 1 * j.val = j.val; omega

/-- The projection matrix's window holds the argument itself. -/
theorem blk2_apply (c : Dev nD) (t : Fin cfg0.N) (k : Fin 3) (e : Fin 128) :
    B2 m c t (ix2 k e) = ((m ((c : Thread nD τ).loc main_arg3)) : S3x128.Idx → EReal) (ix2 k e) := by
  obtain ⟨-, -, -, -, -, -, -, -, -, -, e0, e1, -⟩ := idx_facts t
  show (V m c main_arg3 : S3x128.Idx → EReal) (((cfg0.win 2).blk t).view.emb (ix2 k e)) = _
  rw [V_main_arg3]
  congr 1
  funext a; apply Fin.ext
  match a with
  | ⟨0, _⟩ => show win0_2.index t (0 : Fin 2) * 3 + 1 * k.val = k.val; omega
  | ⟨1, _⟩ => show win0_2.index t (1 : Fin 2) * 128 + 1 * e.val = e.val; omega

/-- The direction bias's window. -/
theorem blk3_apply (c : Dev nD) (t : Fin cfg0.N) (e : Fin 128) :
    B3 m c t (ix2 (0 : Fin 1) e) = ((m ((c : Thread nD τ).loc main_arg4)) : S128.Idx → EReal) (ix1 e) := by
  obtain ⟨-, -, -, -, -, -, -, -, -, -, -, -, e0, e1, -⟩ := idx_facts t
  show (V m c main_v4 : S1x128.Idx → EReal) (((cfg0.win 3).blk t).view.emb (ix2 (0 : Fin 1) e)) = _
  rw [← HostVal.V_v4_apply m c e]
  congr 1
  funext a; apply Fin.ext
  match a with
  | ⟨0, _⟩ => show win0_3.index t (0 : Fin 2) * 1 + 1 * 0 = 0; omega
  | ⟨1, _⟩ => show win0_3.index t (1 : Fin 2) * 128 + 1 * e.val = e.val; omega

/-- The length row's window holds the argument itself. -/
theorem blk4_apply (c : Dev nD) (t : Fin cfg0.N) (e : Fin 128) :
    B4 m c t (ix2 (0 : Fin 1) e) = ((m ((c : Thread nD τ).loc main_arg5)) : S1x128.Idx → EReal) (ix2 (0 : Fin 1) e) := by
  obtain ⟨-, -, -, -, -, -, -, -, -, -, -, -, -, -, e0, e1, -⟩ := idx_facts t
  show (V m c main_arg5 : S1x128.Idx → EReal) (((cfg0.win 4).blk t).view.emb (ix2 (0 : Fin 1) e)) = _
  rw [V_main_arg5]
  congr 1
  funext a; apply Fin.ext
  match a with
  | ⟨0, _⟩ => show win0_4.index t (0 : Fin 2) * 1 + 1 * 0 = 0; omega
  | ⟨1, _⟩ => show win0_4.index t (1 : Fin 2) * 128 + 1 * e.val = e.val; omega

/-- The length bias's window. -/
theorem blk5_apply (c : Dev nD) (t : Fin cfg0.N) (e : Fin 128) :
    B5 m c t (ix2 (0 : Fin 1) e) = ((m ((c : Thread nD τ).loc main_arg6)) : S128.Idx → EReal) (ix1 e) := by
  obtain ⟨-, -, -, -, -, -, -, -, -, -, -, -, -, -, -, -, e0, e1, -⟩ := idx_facts t
  show (V m c main_v5 : S1x128.Idx → EReal) (((cfg0.win 5).blk t).view.emb (ix2 (0 : Fin 1) e)) = _
  rw [← HostVal.V_v5_apply m c e]
  congr 1
  funext a; apply Fin.ext
  match a with
  | ⟨0, _⟩ => show win0_5.index t (0 : Fin 2) * 1 + 1 * 0 = 0; omega
  | ⟨1, _⟩ => show win0_5.index t (1 : Fin 2) * 128 + 1 * e.val = e.val; omega

/-- The gain's window. -/
theorem blk6_apply (c : Dev nD) (t : Fin cfg0.N) (e : Fin 256) :
    B6 m c t (ix2 (0 : Fin 1) e) = ((m ((c : Thread nD τ).loc main_arg7)) : S256.Idx → EReal) (ix1 e) := by
  obtain ⟨-, -, -, -, -, -, -, -, -, -, -, -, -, -, -, -, -, -, e0, e1, -⟩ := idx_facts t
  show (V m c main_v6 : S1x256.Idx → EReal) (((cfg0.win 6).blk t).view.emb (ix2 (0 : Fin 1) e)) = _
  rw [← HostVal.V_v6_apply m c e]
  congr 1
  funext a; apply Fin.ext
  match a with
  | ⟨0, _⟩ => show win0_6.index t (0 : Fin 2) * 1 + 1 * 0 = 0; omega
  | ⟨1, _⟩ => show win0_6.index t (1 : Fin 2) * 256 + 1 * e.val = e.val; omega

/-- The offset's window. -/
theorem blk7_apply (c : Dev nD) (t : Fin cfg0.N) (e : Fin 256) :
    B7 m c t (ix2 (0 : Fin 1) e) = ((m ((c : Thread nD τ).loc main_arg8)) : S256.Idx → EReal) (ix1 e) := by
  obtain ⟨-, -, -, -, -, -, -, -, -, -, -, -, -, -, -, -, -, -, -, -, e0, e1⟩ := idx_facts t
  show (V m c main_v7 : S1x256.Idx → EReal) (((cfg0.win 7).blk t).view.emb (ix2 (0 : Fin 1) e)) = _
  rw [← HostVal.V_v7_apply m c e]
  congr 1
  funext a; apply Fin.ext
  match a with
  | ⟨0, _⟩ => show win0_7.index t (0 : Fin 2) * 1 + 1 * 0 = 0; omega
  | ⟨1, _⟩ => show win0_7.index t (1 : Fin 2) * 256 + 1 * e.val = e.val; omega

/-- The body's row at (time, limb, position) of a point's block is the result function at the array entry with that
    batch, that time of the tile, that limb and position. -/
theorem row_eq (c : Dev nD) (t : Fin cfg0.N) (t' : Fin 256) (l : Fin 16) (d : Fin 256) (i : S32x512x16x256.Idx)
    (h0 : (i 0).val = win0_8.index t (0 : Fin 4)) (h1 : (i 1).val = win0_8.index t (1 : Fin 4) * 256 + t'.val)
    (hl : i 2 = l) (hd : i 3 = d) :
    Cert.Spec.lnRow
        (Cert.Spec.tokK (fun k => ∑ j : Fin 17, B0 m c t (ix4 (0 : Fin 1) t' k j) * B1 m c t (ix2 l j))
          (fun k e => B2 m c t (ix2 k e)) (fun e => B3 m c t (ix2 (0 : Fin 1) e))
          (fun e => B4 m c t (ix2 (0 : Fin 1) e)) (fun e => B5 m c t (ix2 (0 : Fin 1) e)))
        (fun e => B6 m c t (ix2 (0 : Fin 1) e)) (fun e => B7 m c t (ix2 (0 : Fin 1) e)) d
      = GKm m c i := by
  show _ = Cert.Spec.lnRow (Cert.Spec.tokK _ _ _ _ _) _ _ _
  refine lnRow_tokK_congr ?_ ?_ ?_ ?_ ?_ ?_ ?_ hd.symm
  · funext k
    refine Finset.sum_congr rfl fun j _ => ?_
    rw [blk0_apply m c t t' k j (i 0) (i 1) h0 h1, blk1_apply m c t l j, hl]
  · funext k e; exact blk2_apply m c t k e
  · funext e; exact blk3_apply m c t e
  · funext e; exact blk4_apply m c t e
  · funext e; exact blk5_apply m c t e
  · funext e; exact blk6_apply m c t e
  · funext e; exact blk7_apply m c t e

/-- What a grid point writes back is its block of the result function. -/
theorem flushed_eq (c : Dev nD) (t : Fin cfg0.N) :
    (dats m 0 c).flushed 8 t = ((cfg0.win 8).blk t).view.read (Elt Ideal) (GKm m c) := by
  show (cfg0.win 8).cut (grid0.coords t) ((dats m 0 c).after 8 t) = _
  rw [after0_8]
  unfold out0_8
  simp only [View.ld_unit_zero (S := S1x256x3x17) hz4, View.ld_unit_zero (S := S16x17) hz2, View.ld_unit_zero (S := S3x128) hz2,
    View.ld_unit_zero (S := S1x128) hz2, View.ld_unit_zero (S := S1x256) hz2]
  funext y
  obtain ⟨u, t', l, d, rfl⟩ : ∃ (u : Fin 1) (t' : Fin 256) (l : Fin 16) (d : Fin 256), (y : S1x256x16x256.Idx) = ix4 u t' l d :=
    ⟨y 0, y 1, y 2, y 3, eq_ix4 y⟩
  obtain rfl : u = 0 := Subsingleton.elim _ _
  obtain ⟨-, -, -, -, e2, e3, -⟩ := idx_facts t
  refine (canon8_eq (F := Ideal) (B0 m c t) (B1 m c t) (B2 m c t) (B3 m c t) (B4 m c t) (B5 m c t)
    (B6 m c t) (B7 m c t) (ix4 (0 : Fin 1) t' l d)).trans ?_
  refine (Body.block_apply (B0 m c t) (B1 m c t) (B2 m c t) (B3 m c t) (B4 m c t) (B5 m c t)
    (B6 m c t) (B7 m c t) t' l d).trans ?_
  exact row_eq m c t t' l d _
    (by show win0_8.index t (0 : Fin 4) * 1 + 1 * 0 = _; omega)
    (by show win0_8.index t (1 : Fin 4) * 256 + 1 * t'.val = _; omega)
    (Fin.ext (by show win0_8.index t (2 : Fin 4) * 16 + 1 * l.val = l.val; omega))
    (Fin.ext (by show win0_8.index t (3 : Fin 4) * 256 + 1 * d.val = d.val; omega))

/-- An index of the array is in a point's block iff each coordinate is in the block's range on its axis. -/
theorem mem_blk (t : Fin cfg0.N) (i : S32x512x16x256.Idx) :
    i ∈ ((cfg0.win 8).blk t).view.set ↔ ∀ a : Fin 4, win0_8.index t a * S1x256x16x256.size a ≤ (i a).val ∧ (i a).val < win0_8.index t a * S1x256x16x256.size a + S1x256x16x256.size a := by
  show i ∈ ((View.whole main_v8).slice (win0_8.rect t)).set ↔ _
  rw [View.set_slice_whole, Rect.mem_set_unit]
  exact Iff.rfl

/-- The 64 blocks fill the array: entry (batch, time, limb, position) lies in the block of (batch, time / 256). -/
theorem cover (i : S32x512x16x256.Idx) :
    ∃ t : Fin cfg0.N, (cfg0.win 8).flush t = true ∧ i ∈ ((cfg0.win 8).blk t).view.set := by
  have hi0 : (i 0).val < 32 := (i 0).isLt
  have hi1 : (i 1).val < 512 := (i 1).isLt
  have hi2 : (i 2).val < 16 := (i 2).isLt
  have hi3 : (i 3).val < 256 := (i 3).isLt
  obtain ⟨t, ht⟩ := idx_onto ⟨(i 0).val, by omega⟩ ⟨(i 1).val / 256, by omega⟩
  have q0 : win0_8.index t (0 : Fin 4) = (i 0).val := congrFun ht 0
  have q1 : win0_8.index t (1 : Fin 4) = (i 1).val / 256 := congrFun ht 1
  have q2 : win0_8.index t (2 : Fin 4) = 0 := congrFun ht 2
  have q3 : win0_8.index t (3 : Fin 4) = 0 := congrFun ht 3
  refine ⟨t, flush0_8 t, ?_⟩
  rw [mem_blk]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 256 ≤ (i 1).val ∧ (i 1).val < win0_8.index t (1 : Fin 4) * 256 + 256; omega
  | ⟨2, _⟩ => show win0_8.index t (2 : Fin 4) * 16 ≤ (i 2).val ∧ (i 2).val < win0_8.index t (2 : Fin 4) * 16 + 16; omega
  | ⟨3, _⟩ => show win0_8.index t (3 : Fin 4) * 256 ≤ (i 3).val ∧ (i 3).val < win0_8.index t (3 : Fin 4) * 256 + 256; omega

/-- The array after the run is the result function of the arguments. -/
theorem final (c : Dev nD) : (dats m 0 c).arrAt 8 cfg0.N = GKm m c :=
  (dats m 0 c).arrAt_eq_of_cover 8 (GKm m c) (fun t _ => flushed_eq m c t) cover

/-- The run of the program: it ends with the result array at the result function, the arguments as launched. -/
theorem run : θ_run defs (onTc (τ := τ) (main (F := Ideal))) ⟨m, fun _ => 0, ρ⟩ fun r => ∀ c : Dev nD,
      r.2.mem ((c : Thread nD τ).loc main_v8) = GKm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩) (run_blocks m ρ)

end Cert.KernelIdeal.Final

end
-- ==== Proof.RefRead.lean ====
import proofs.«429518_j69896297775214_2_alg».proof.Proof.Gen.ReferenceIdeal.Read
import proofs.«429518_j69896297775214_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Predicate

/-!
  The reference's result read index by index.

  At a position (batch, time, limb, d) the result is the layer norm, at `d`, of the row of 256 built from the limb
  vector: the child joint's coordinates minus the parent joint's, each joint looked up by its number read signed,
  re-based by 17 where negative, and clamped into `0 … 16`.  The lemmas below read the stages in order: the two
  lookups, their difference, its floored length, the two halves of the row and their join, the row's mean and the
  reciprocal root of its variance, and last the normalised row with gain and offset.
-/

open scoped BigOperators

noncomputable section

namespace Cert.ReferenceIdeal.RefValue

open Cert.ReferenceIdeal Cert.ReferenceIdeal.Gen Cert.ReferenceIdeal.Read Idealize.ShloMosaic Idealize.ShloMosaic.ValueIdx

/-- The lookup's dimension numbers: the joint axis (axis 2) is collapsed and start-indexed by a column of numbers. -/
abbrev gd := gather_S32x512x17x3_S16x1_S32x512x16x3_013_2_n_n_2_1_3251213

/-- On the batch axis the lookup reads the result position's own coordinate. -/
theorem gd_axis0 (j : S32x512x16x3.Idx) (idx : IVec S16x1 32) : (gd.operandIdx j idx (0 : Fin 4)).val = (j 0).val := by
  show gd.start j idx 0 + gd.batchCoord j 0 + gd.offCoord j 0 = _
  rw [GatherDims.batchCoord_eq_zero _ _ _ List.not_mem_nil, Nat.add_zero]
  unfold GatherDims.start GatherDims.offCoord
  rw [dif_neg (by decide), dif_pos (by decide), Nat.zero_add]
  rfl

/-- On the time axis the lookup reads the result position's own coordinate. -/
theorem gd_axis1 (j : S32x512x16x3.Idx) (idx : IVec S16x1 32) : (gd.operandIdx j idx (1 : Fin 4)).val = (j 1).val := by
  show gd.start j idx 1 + gd.batchCoord j 1 + gd.offCoord j 1 = _
  rw [GatherDims.batchCoord_eq_zero _ _ _ List.not_mem_nil, Nat.add_zero]
  unfold GatherDims.start GatherDims.offCoord
  rw [dif_neg (by decide), dif_pos (by decide), Nat.zero_add]
  rfl

/-- On the coordinate axis the lookup reads the result position's own coordinate. -/
theorem gd_axis3 (j : S32x512x16x3.Idx) (idx : IVec S16x1 32) : (gd.operandIdx j idx (3 : Fin 4)).val = (j 3).val := by
  show gd.start j idx 3 + gd.batchCoord j 3 + gd.offCoord j 3 = _
  rw [GatherDims.batchCoord_eq_zero _ _ _ List.not_mem_nil, Nat.add_zero]
  unfold GatherDims.start GatherDims.offCoord
  rw [dif_neg (by decide), dif_pos (by decide), Nat.zero_add]
  rfl

/-- On the joint axis the lookup reads the number in the result position's row of the column, signed, clamped into `0 … 16`. -/
theorem gd_axis2 (j : S32x512x16x3.Idx) (idx : IVec S16x1 32) :
    (gd.operandIdx j idx (2 : Fin 4)).val = min (idx (ix2 (j 2) (0 : Fin 1))).toInt.toNat 16 := by
  show gd.start j idx 2 + gd.batchCoord j 2 + gd.offCoord j 2 = _
  rw [GatherDims.batchCoord_eq_zero _ _ _ List.not_mem_nil, Nat.add_zero,
    GatherDims.offCoord_eq_zero _ _ _ (by decide), Nat.add_zero]
  unfold GatherDims.start
  rw [dif_pos (by decide)]
  have hsi : gd.siIdx j ⟨List.idxOf (2 : Fin 4) gd.startIndexMap, List.idxOf_lt_length_iff.2 (by decide)⟩ = ix2 (j 2) (0 : Fin 1) := by
    funext e; refine Fin.ext ?_
    match e with
    | ⟨0, _⟩ => rfl
    | ⟨1, _⟩ => rfl
  rw [hsi]
  rfl

/-- The lookup at a result position reads the operand at the same batch, time and coordinate, and on the joint
    axis at the position's number read signed and clamped into `0 … 16`. -/
theorem gather_apply {α : Type} (x : S32x512x17x3.Idx → α) (idx : IVec S16x1 32) (b : Fin 32) (t : Fin 512) (l : Fin 16) (c : Fin 3) :
    Host.gather gd x idx (ix4 b t l c) = x (ix4 b t ⟨min (idx (ix2 l (0 : Fin 1))).toInt.toNat 16, by omega⟩ c) := by
  unfold Host.gather
  congr 1
  funext a
  refine Fin.ext ?_
  match a with
  | ⟨0, _⟩ => exact gd_axis0 _ idx
  | ⟨1, _⟩ => exact gd_axis1 _ idx
  | ⟨2, _⟩ => exact gd_axis2 _ idx
  | ⟨3, _⟩ => exact gd_axis3 _ idx

/-- A signed comparison with zero answers one exactly on the negative numbers. -/
theorem slt_zero_iff (a : BitVec 32) : IntOp.cmpi .slt a 0#32 = 1#1 ↔ a.toInt < 0 := by
  unfold IntOp.cmpi
  rw [StableHlo.Predicate.ofBool_eq_one_iff]
  show a.slt 0#32 = true ↔ _
  rw [BitVec.slt, decide_eq_true_eq]
  have h0 : (0#32 : BitVec 32).toInt = 0 := by decide
  rw [h0]

/-- Re-basing a number by 17 where it compares below zero is the `if` on its sign. -/
theorem rebase_eq (a : BitVec 32) :
    Scalar.select (IntOp.cmpi .slt a 0#32) (IntOp.addi a 17#32) a = if a.toInt < 0 then a + 17#32 else a := by
  by_cases h : a.toInt < 0
  · rw [if_pos h, (slt_zero_iff a).2 h, select_one]; rfl
  · rw [if_neg h, eq_zero_of_ne_one (fun e => h ((slt_zero_iff a).1 e)), select_zero]

/-- The child column: row `l` holds the child number of limb `l`, re-based where negative. -/
theorem v5_apply (x2 : (⟨S16, .i32⟩ : BufTy).Contents (Elt Ideal)) (l : Fin 16) :
    val_main_v5 (F := Ideal) x2 (ix2 l (0 : Fin 1))
      = if (x2 (ix1 l)).toInt < 0 then x2 (ix1 l) + 17#32 else x2 (ix1 l) := by
  rw [val_main_v5_apply, val_main_v4_apply, val_main_v1_apply, val_main_v3_apply, val_main_v0_apply, val_main_v2_apply,
    val_main_c_apply, val_main_c_0_apply]
  have e : idx_main_v5 (ix2 l (0 : Fin 1)) = ix1 l := funext fun a => Fin.ext (by match a with | ⟨0, _⟩ => rfl)
  rw [e]
  exact rebase_eq _

/-- The parent column: row `l` holds the parent number of limb `l`, re-based where negative. -/
theorem v12_apply (x1 : (⟨S16, .i32⟩ : BufTy).Contents (Elt Ideal)) (l : Fin 16) :
    val_main_v12 (F := Ideal) x1 (ix2 l (0 : Fin 1))
      = if (x1 (ix1 l)).toInt < 0 then x1 (ix1 l) + 17#32 else x1 (ix1 l) := by
  rw [val_main_v12_apply, val_main_v11_apply, val_main_v8_apply, val_main_v10_apply, val_main_v7_apply, val_main_v9_apply,
    val_main_c_1_apply, val_main_c_2_apply]
  have e : idx_main_v12 (ix2 l (0 : Fin 1)) = ix1 l := funext fun a => Fin.ext (by match a with | ⟨0, _⟩ => rfl)
  rw [e]
  exact rebase_eq _

/-- The child lookup reads the joint the child number names. -/
theorem v6_apply (x0 : (⟨S32x512x17x3, .f32⟩ : BufTy).Contents (Elt Ideal)) (x2 : (⟨S16, .i32⟩ : BufTy).Contents (Elt Ideal))
    (b : Fin 32) (t : Fin 512) (l : Fin 16) (c : Fin 3) :
    val_main_v6 (F := Ideal) x0 x2 (ix4 b t l c) = x0 (ix4 b t (Cert.Spec.refJoint (x2 (ix1 l))) c) := by
  unfold val_main_v6
  refine (gather_apply x0 _ b t l c).trans ?_
  refine congrArg x0 (congrArg (fun q => ix4 b t q c) (Fin.ext ?_))
  show min (val_main_v5 (F := Ideal) x2 (ix2 l (0 : Fin 1))).toInt.toNat 16 = _
  rw [v5_apply]
  rfl

/-- The parent lookup reads the joint the parent number names. -/
theorem v13_apply (x0 : (⟨S32x512x17x3, .f32⟩ : BufTy).Contents (Elt Ideal)) (x1 : (⟨S16, .i32⟩ : BufTy).Contents (Elt Ideal))
    (b : Fin 32) (t : Fin 512) (l : Fin 16) (c : Fin 3) :
    val_main_v13 (F := Ideal) x0 x1 (ix4 b t l c) = x0 (ix4 b t (Cert.Spec.refJoint (x1 (ix1 l))) c) := by
  unfold val_main_v13
  refine (gather_apply x0 _ b t l c).trans ?_
  refine congrArg x0 (congrArg (fun q => ix4 b t q c) (Fin.ext ?_))
  show min (val_main_v12 (F := Ideal) x1 (ix2 l (0 : Fin 1))).toInt.toNat 16 = _
  rw [v12_apply]
  rfl

/-- The limb vector of one (batch, time, limb): its coordinate `c` is the child joint's minus the parent joint's. -/
abbrev limbV (x0 : (⟨S32x512x17x3, .f32⟩ : BufTy).Contents (Elt Ideal)) (x1 x2 : (⟨S16, .i32⟩ : BufTy).Contents (Elt Ideal))
    (b : Fin 32) (t : Fin 512) (l : Fin 16) : Fin 3 → EReal :=
  fun c => Cert.Spec.limbR (fun j => x0 (ix4 b t j c)) (x1 (ix1 l)) (x2 (ix1 l))

/-- The difference of the two lookups is the limb vector. -/
theorem v14_apply (x0 : (⟨S32x512x17x3, .f32⟩ : BufTy).Contents (Elt Ideal)) (x1 x2 : (⟨S16, .i32⟩ : BufTy).Contents (Elt Ideal))
    (b : Fin 32) (t : Fin 512) (l : Fin 16) (c : Fin 3) :
    val_main_v14 (F := Ideal) x0 x1 x2 (ix4 b t l c) = limbV x0 x1 x2 b t l c := by
  rw [val_main_v14_apply, v6_apply, v13_apply]
  rfl

/-- The floored length of the limb vector, on the kept unit axis. -/
theorem v17_apply (x0 : (⟨S32x512x17x3, .f32⟩ : BufTy).Contents (Elt Ideal)) (x1 x2 : (⟨S16, .i32⟩ : BufTy).Contents (Elt Ideal))
    (b : Fin 32) (t : Fin 512) (l : Fin 16) (z : Fin 1) :
    val_main_v17 (F := Ideal) x0 x1 x2 (ix4 b t l z) = Cert.Spec.limbLen (limbV x0 x1 x2 b t l) := by
  rw [val_main_v17_apply, val_main_v15_apply, val_main_v16_apply, val_main_cst_apply, val_main_call0_v2_apply,
    val_main_call0_v1_apply, val_main_call0_cst_apply]
  have e : ∀ k : Fin 3, idx_main_call0_v1 (idx_main_call0_v2 (ix4 b t l z)) k = ix4 b t l k := fun k =>
    funext fun a => Fin.ext (by match a with | ⟨0, _⟩ => rfl | ⟨1, _⟩ => rfl | ⟨2, _⟩ => rfl | ⟨3, _⟩ => rfl)
  simp only [e, val_main_call0_v0_apply, v14_apply]
  rw [Fin.sum_univ_three]
  simp only [Ideal.ofBits_def, Ideal.mulf_def, Ideal.maximumf_def, Ideal.hostUnary_sqrt_def, Ideal.ofBits_zero_f32, zero_add]
  rfl

/-- Each coordinate of the limb vector divided by the floored length. -/
theorem v19_apply (x0 : (⟨S32x512x17x3, .f32⟩ : BufTy).Contents (Elt Ideal)) (x1 x2 : (⟨S16, .i32⟩ : BufTy).Contents (Elt Ideal))
    (b : Fin 32) (t : Fin 512) (l : Fin 16) (c : Fin 3) :
    val_main_v19 (F := Ideal) x0 x1 x2 (ix4 b t l c)
      = Ideal.div (limbV x0 x1 x2 b t l c) (Cert.Spec.limbLen (limbV x0 x1 x2 b t l)) := by
  rw [val_main_v19_apply, val_main_v18_apply, v14_apply]
  have e : idx_main_v18 (ix4 b t l c) = ix4 b t l (0 : Fin 1) :=
    funext fun a => Fin.ext (by match a with | ⟨0, _⟩ => rfl | ⟨1, _⟩ => rfl | ⟨2, _⟩ => rfl | ⟨3, _⟩ => rfl)
  rw [e, v17_apply]
  rfl

/-- The first half of the row: the direction projected through the matrix, plus the bias. -/
theorem v23_apply (x0 : (⟨S32x512x17x3, .f32⟩ : BufTy).Contents (Elt Ideal)) (x1 x2 : (⟨S16, .i32⟩ : BufTy).Contents (Elt Ideal))
    (x3 : (⟨S3x128, .f32⟩ : BufTy).Contents (Elt Ideal)) (x4 : (⟨S128, .f32⟩ : BufTy).Contents (Elt Ideal))
    (b : Fin 32) (t : Fin 512) (l : Fin 16) (e : Fin 128) :
    val_main_v23 (F := Ideal) x0 x1 x2 x3 x4 (ix4 b t l e)
      = (∑ c : Fin 3, Ideal.div (limbV x0 x1 x2 b t l c) (Cert.Spec.limbLen (limbV x0 x1 x2 b t l)) * x3 (ix2 c e))
          + x4 (ix1 e) := by
  rw [val_main_v23_apply, val_main_v20_apply, val_main_v22_apply, val_main_v21_apply]
  have el : ∀ k : Fin 3, lidx_main_v20 (ix4 b t l e) k = ix4 b t l k := fun k =>
    funext fun a => Fin.ext (by match a with | ⟨0, _⟩ => rfl | ⟨1, _⟩ => rfl | ⟨2, _⟩ => rfl | ⟨3, _⟩ => rfl)
  have er : ∀ k : Fin 3, ridx_main_v20 (ix4 b t l e) k = ix2 k e := fun k =>
    funext fun a => Fin.ext (by match a with | ⟨0, _⟩ => rfl | ⟨1, _⟩ => rfl)
  have eb : idx_main_v21 (idx_main_v22 (ix4 b t l e)) = ix1 e :=
    funext fun a => Fin.ext (by match a with | ⟨0, _⟩ => rfl)
  simp only [el, er, eb, v19_apply]
  rfl

/-- The second half of the row: the floored length times a row, plus a bias. -/
theorem v31_apply (x0 : (⟨S32x512x17x3, .f32⟩ : BufTy).Contents (Elt Ideal)) (x1 x2 : (⟨S16, .i32⟩ : BufTy).Contents (Elt Ideal))
    (x5 : (⟨S1x128, .f32⟩ : BufTy).Contents (Elt Ideal)) (x6 : (⟨S128, .f32⟩ : BufTy).Contents (Elt Ideal))
    (b : Fin 32) (t : Fin 512) (l : Fin 16) (e : Fin 128) :
    val_main_v31 (F := Ideal) x0 x1 x2 x5 x6 (ix4 b t l e)
      = Cert.Spec.limbLen (limbV x0 x1 x2 b t l) * x5 (ix2 (0 : Fin 1) e) + x6 (ix1 e) := by
  rw [val_main_v31_apply, val_main_v28_apply, val_main_v26_apply, val_main_v27_apply, val_main_v25_apply, val_main_v24_apply,
    val_main_v30_apply, val_main_v29_apply]
  have e26 : idx_main_v26 (ix4 b t l e) = ix4 b t l (0 : Fin 1) :=
    funext fun a => Fin.ext (by match a with | ⟨0, _⟩ => rfl | ⟨1, _⟩ => rfl | ⟨2, _⟩ => rfl | ⟨3, _⟩ => rfl)
  have e24 : idx_main_v24 (idx_main_v25 (idx_main_v27 (ix4 b t l e))) = ix2 (0 : Fin 1) e :=
    funext fun a => Fin.ext (by match a with | ⟨0, _⟩ => rfl | ⟨1, _⟩ => exact Nat.mod_eq_of_lt e.isLt)
  have e29 : idx_main_v29 (idx_main_v30 (ix4 b t l e)) = ix1 e :=
    funext fun a => Fin.ext (by match a with | ⟨0, _⟩ => rfl)
  rw [e26, e24, e29, v17_apply]
  rfl

/-- The row of 256 before normalisation. -/
abbrev tokV (x0 : (⟨S32x512x17x3, .f32⟩ : BufTy).Contents (Elt Ideal)) (x1 x2 : (⟨S16, .i32⟩ : BufTy).Contents (Elt Ideal))
    (x3 : (⟨S3x128, .f32⟩ : BufTy).Contents (Elt Ideal)) (x4 : (⟨S128, .f32⟩ : BufTy).Contents (Elt Ideal))
    (x5 : (⟨S1x128, .f32⟩ : BufTy).Contents (Elt Ideal)) (x6 : (⟨S128, .f32⟩ : BufTy).Contents (Elt Ideal))
    (b : Fin 32) (t : Fin 512) (l : Fin 16) : Fin 256 → EReal :=
  Cert.Spec.tokR (limbV x0 x1 x2 b t l) (fun c e => x3 (ix2 c e)) (fun e => x4 (ix1 e)) (fun e => x5 (ix2 (0 : Fin 1) e))
    (fun e => x6 (ix1 e))

/-- The two halves joined along the last axis are the row. -/
theorem v32_apply (x0 : (⟨S32x512x17x3, .f32⟩ : BufTy).Contents (Elt Ideal)) (x1 x2 : (⟨S16, .i32⟩ : BufTy).Contents (Elt Ideal))
    (x3 : (⟨S3x128, .f32⟩ : BufTy).Contents (Elt Ideal)) (x4 : (⟨S128, .f32⟩ : BufTy).Contents (Elt Ideal))
    (x5 : (⟨S1x128, .f32⟩ : BufTy).Contents (Elt Ideal)) (x6 : (⟨S128, .f32⟩ : BufTy).Contents (Elt Ideal))
    (b : Fin 32) (t : Fin 512) (l : Fin 16) (d : Fin 256) :
    val_main_v32 (F := Ideal) x0 x1 x2 x3 x4 x5 x6 (ix4 b t l d) = tokV x0 x1 x2 x3 x4 x5 x6 b t l d := by
  unfold val_main_v32
  show _ = Cert.Spec.tokR _ _ _ _ _ d
  unfold Cert.Spec.tokR
  by_cases h : d.val < 128
  · rw [dif_pos h]
    refine (concatenate_pair_apply_left (t := S32x512x16x256) (s₁ := S32x512x16x128) (s₂ := S32x512x16x128) (3 : Fin 4) _ _ _
      (ix4 b t l d) rfl (ix4 b t l (⟨d.val, h⟩ : Fin 128)) ?_).trans ?_
    · intro a
      match a with
      | ⟨0, _⟩ => rfl
      | ⟨1, _⟩ => rfl
      | ⟨2, _⟩ => rfl
      | ⟨3, _⟩ => rfl
    · exact v23_apply x0 x1 x2 x3 x4 b t l ⟨d.val, h⟩
  · rw [dif_neg h]
    have hd := d.isLt
    refine (concatenate_pair_apply_right (t := S32x512x16x256) (s₁ := S32x512x16x128) (s₂ := S32x512x16x128) (3 : Fin 4) _ _ _
      (ix4 b t l d) rfl rfl (ix4 b t l (⟨d.val - 128, by omega⟩ : Fin 128)) ?_ ?_).trans ?_
    · intro a ha
      match a, ha with
      | ⟨0, _⟩, _ => rfl
      | ⟨1, _⟩, _ => rfl
      | ⟨2, _⟩, _ => rfl
      | ⟨3, _⟩, ha => exact absurd rfl ha
    · show d.val - 128 + 128 = d.val
      omega
    · exact v31_apply x0 x1 x2 x5 x6 b t l ⟨d.val - 128, by omega⟩

/-- The mean of the row, on the kept unit axis. -/
theorem v36_apply (x0 : (⟨S32x512x17x3, .f32⟩ : BufTy).Contents (Elt Ideal)) (x1 x2 : (⟨S16, .i32⟩ : BufTy).Contents (Elt Ideal))
    (x3 : (⟨S3x128, .f32⟩ : BufTy).Contents (Elt Ideal)) (x4 : (⟨S128, .f32⟩ : BufTy).Contents (Elt Ideal))
    (x5 : (⟨S1x128, .f32⟩ : BufTy).Contents (Elt Ideal)) (x6 : (⟨S128, .f32⟩ : BufTy).Contents (Elt Ideal))
    (b : Fin 32) (t : Fin 512) (l : Fin 16) (z : Fin 1) :
    val_main_v36 (F := Ideal) x0 x1 x2 x3 x4 x5 x6 (ix4 b t l z) = Cert.Spec.rowMean (tokV x0 x1 x2 x3 x4 x5 x6 b t l) := by
  rw [val_main_v36_apply, val_main_v34_apply, val_main_v33_apply, val_main_cst_3_apply, val_main_v35_apply, val_main_cst_4_apply]
  have e : ∀ k : Fin 256, idx_main_v33 (idx_main_v34 (ix4 b t l z)) k = ix4 b t l k := fun k =>
    funext fun a => Fin.ext (by match a with | ⟨0, _⟩ => rfl | ⟨1, _⟩ => rfl | ⟨2, _⟩ => rfl | ⟨3, _⟩ => rfl)
  simp only [e, v32_apply]
  simp only [Ideal.ofBits_def, Ideal.hostDivf_def, Ideal.ofBits_zero_f32, zero_add]
  rfl

/-- The reciprocal root of the row's variance plus the offset, on the kept unit axis. -/
theorem v48_apply (x0 : (⟨S32x512x17x3, .f32⟩ : BufTy).Contents (Elt Ideal)) (x1 x2 : (⟨S16, .i32⟩ : BufTy).Contents (Elt Ideal))
    (x3 : (⟨S3x128, .f32⟩ : BufTy).Contents (Elt Ideal)) (x4 : (⟨S128, .f32⟩ : BufTy).Contents (Elt Ideal))
    (x5 : (⟨S1x128, .f32⟩ : BufTy).Contents (Elt Ideal)) (x6 : (⟨S128, .f32⟩ : BufTy).Contents (Elt Ideal))
    (b : Fin 32) (t : Fin 512) (l : Fin 16) (z : Fin 1) :
    val_main_v48 (F := Ideal) x0 x1 x2 x3 x4 x5 x6 (ix4 b t l z)
      = Ideal.rsqrt (Ideal.div (∑ k, (tokV x0 x1 x2 x3 x4 x5 x6 b t l k - Cert.Spec.rowMean (tokV x0 x1 x2 x3 x4 x5 x6 b t l))
          * (tokV x0 x1 x2 x3 x4 x5 x6 b t l k - Cert.Spec.rowMean (tokV x0 x1 x2 x3 x4 x5 x6 b t l))) Cert.Spec.c256
          + Cert.Spec.epsLn) := by
  rw [val_main_v48_apply, val_main_v47_apply, val_main_v43_apply, val_main_v41_apply, val_main_v40_apply, val_main_cst_5_apply,
    val_main_v42_apply, val_main_cst_6_apply, val_main_v46_apply, val_main_cst_7_apply]
  have e : ∀ k : Fin 256, idx_main_v40 (idx_main_v41 (ix4 b t l z)) k = ix4 b t l k := fun k =>
    funext fun a => Fin.ext (by match a with | ⟨0, _⟩ => rfl | ⟨1, _⟩ => rfl | ⟨2, _⟩ => rfl | ⟨3, _⟩ => rfl)
  have e37 : ∀ k : Fin 256, idx_main_v37 (ix4 b t l k) = ix4 b t l (0 : Fin 1) := fun k =>
    funext fun a => Fin.ext (by match a with | ⟨0, _⟩ => rfl | ⟨1, _⟩ => rfl | ⟨2, _⟩ => rfl | ⟨3, _⟩ => rfl)
  simp only [e, val_main_v39_apply, val_main_v38_apply, val_main_v37_apply, e37, v32_apply, v36_apply]
  simp only [Ideal.ofBits_def, Ideal.hostDivf_def, Ideal.hostUnary_rsqrt_def, Ideal.addf_def, Ideal.subf_def, Ideal.mulf_def,
    Ideal.ofBits_zero_f32, zero_add]

/-- The reference's result, index by index, is the layer norm of the row built from the looked-up limb vector. -/
theorem ref_eq (x0 : (⟨S32x512x17x3, .f32⟩ : BufTy).Contents (Elt Ideal)) (x1 x2 : (⟨S16, .i32⟩ : BufTy).Contents (Elt Ideal))
    (x3 : (⟨S3x128, .f32⟩ : BufTy).Contents (Elt Ideal)) (x4 : (⟨S128, .f32⟩ : BufTy).Contents (Elt Ideal))
    (x5 : (⟨S1x128, .f32⟩ : BufTy).Contents (Elt Ideal)) (x6 : (⟨S128, .f32⟩ : BufTy).Contents (Elt Ideal))
    (x7 x8 : (⟨S256, .f32⟩ : BufTy).Contents (Elt Ideal)) :
    val_main_v56 (F := Ideal) x0 x1 x2 x3 x4 x5 x6 x7 x8 = Cert.Spec.GR x0 x1 x2 x3 x4 x5 x6 x7 x8 := by
  funext i
  obtain ⟨b, t, l, d, rfl⟩ : ∃ b t l d, i = ix4 b t l d := ⟨i 0, i 1, i 2, i 3, eq_ix4 i⟩
  show val_main_v56 (F := Ideal) x0 x1 x2 x3 x4 x5 x6 x7 x8 (ix4 b t l d)
    = Cert.Spec.lnRow (tokV x0 x1 x2 x3 x4 x5 x6 b t l) (fun e => x7 (ix1 e)) (fun e => x8 (ix1 e)) d
  rw [val_main_v56_apply, val_main_v53_apply, val_main_v50_apply, val_main_v45_apply, val_main_v44_apply, val_main_v49_apply,
    val_main_v52_apply, val_main_v51_apply, val_main_v55_apply, val_main_v54_apply]
  have e44 : idx_main_v44 (ix4 b t l d) = ix4 b t l (0 : Fin 1) :=
    funext fun a => Fin.ext (by match a with | ⟨0, _⟩ => rfl | ⟨1, _⟩ => rfl | ⟨2, _⟩ => rfl | ⟨3, _⟩ => rfl)
  have e49 : idx_main_v49 (ix4 b t l d) = ix4 b t l (0 : Fin 1) :=
    funext fun a => Fin.ext (by match a with | ⟨0, _⟩ => rfl | ⟨1, _⟩ => rfl | ⟨2, _⟩ => rfl | ⟨3, _⟩ => rfl)
  have e51 : idx_main_v51 (idx_main_v52 (ix4 b t l d)) = ix1 d :=
    funext fun a => Fin.ext (by match a with | ⟨0, _⟩ => rfl)
  have e54 : idx_main_v54 (idx_main_v55 (ix4 b t l d)) = ix1 d :=
    funext fun a => Fin.ext (by match a with | ⟨0, _⟩ => rfl)
  simp only [e44, e49, e51, e54, v32_apply, v36_apply, v48_apply]
  rfl

end Cert.ReferenceIdeal.RefValue

end
-- ==== Proof.PreDecode.lean ====
import proofs.«429518_j69896297775214_2_alg».proof.Pre_finite_inputs
import proofs.«429518_j69896297775214_2_alg».proof.Proof.Spec
import Idealize.ShloMosaic.Lib.ValueIdx
import Idealize.ShloMosaic.Lib.ReduceAll
import Idealize.ShloMosaic.Lib.StableHlo.Predicate

noncomputable section

namespace Cert.PreDecode

open Idealize.ShloMosaic Idealize.ShloMosaic.ValueIdx Cert.Pre_finite_inputs Cert.LibReal

variable [Cert.Pre_finite_inputs.Facts]

/-- A shape of rank zero has a single index. -/
instance : Subsingleton S_.Idx := ⟨fun a b => funext fun d => d.elim0⟩

/-- The bit pattern 0x7F800000 denotes positive infinity. -/
theorem inf_eq_top : Ideal.ofBits .f32 0x7F800000#32 = (⊤ : EReal) := by
  simp [Ideal.ofBits, Ideal.ieee]

/-- An extended real whose absolute value max x (-x) lies strictly below positive infinity is a real number:
    at ⊥ the absolute value is -⊥ = ⊤, at ⊤ it is ⊤, and neither is below ⊤. -/
theorem isReal_of_abs_lt_top (x : EReal) (h : max x (-x) < ⊤) : IsReal x := by
  induction x using EReal.rec with
  | bot => exact absurd h (by simp)
  | coe r => exact IsReal.coe r
  | top => exact absurd h (by simp)

/-- The elementwise test |x| < +inf, read at one element. -/
theorem isReal_of_test (x : EReal)
    (h : Ideal.cmp .olt (max x (-x)) (Ideal.ofBits .f32 0x7F800000#32) = 1#1) : IsReal x := by
  rw [inf_eq_top] at h
  refine isReal_of_abs_lt_top x ?_
  by_contra hn
  simp [Ideal.cmp, hn] at h

/-- The two signed comparisons 0 ≤ a and a < 17, read at one word. -/
theorem inRange_of_tests (a : BitVec 32) (h0 : IntOp.cmpi .sge a 0#32 = 1#1) (h1 : IntOp.cmpi .slt a 17#32 = 1#1) :
    Cert.Spec.InRange a := by
  have g0 := IntOp.cmpi_sge.1 h0
  have g1 := IntOp.cmpi_slt.1 h1
  exact ⟨by simpa using g0, by simpa using g1⟩

/-- What the precondition gives: the coordinates and the projection matrix are real numbers, and every parent and
    child number is a joint (from 0 to 16). -/
theorem decode (a0 : FVec Ideal S32x512x17x3 .f32) (a1 a2 : IVec S16 32) (a3 : FVec Ideal S3x128 .f32)
    (a4 : FVec Ideal S128 .f32) (a5 : FVec Ideal S1x128 .f32) (a6 : FVec Ideal S128 .f32) (a7 a8 : FVec Ideal S256 .f32)
    (h : Cert.Pre_finite_inputs.fn (F := Ideal) a0 a1 a2 a3 a4 a5 a6 a7 a8 = fun _ => 1#1) :
    (∀ i, IsReal (a0 i)) ∧ (∀ i, IsReal (a3 i)) ∧ (∀ l, Cert.Spec.InRange (a1 l)) ∧ (∀ l, Cert.Spec.InRange (a2 l)) := by
  have e := congrFun h ix0
  dsimp only [fn, fn_part1, fn_part2] at e
  -- the result is a left-nested conjunction of nine tests; peel it from the outside in
  obtain ⟨e40, e46⟩ := IntOp.andi_eq_one.1 e
  obtain ⟨e33, e39⟩ := IntOp.andi_eq_one.1 e40
  obtain ⟨e28, -⟩ := IntOp.andi_eq_one.1 e33
  obtain ⟨e23, -⟩ := IntOp.andi_eq_one.1 e28
  obtain ⟨e18, -⟩ := IntOp.andi_eq_one.1 e23
  obtain ⟨e13, -⟩ := IntOp.andi_eq_one.1 e18
  obtain ⟨e8, -⟩ := IntOp.andi_eq_one.1 e13
  obtain ⟨e3, e7⟩ := IntOp.andi_eq_one.1 e8
  refine ⟨fun i => ?_, fun i => ?_, fun l => ?_, fun l => ?_⟩
  · exact isReal_of_test (a0 i) (Host.reduce_andi_all _ _ _ _ _ e3 i)
  · exact isReal_of_test (a3 i) (Host.reduce_andi_all _ _ _ _ _ e7 i)
  · obtain ⟨p0, p1⟩ := IntOp.andi_eq_one.1 (Host.reduce_andi_all _ _ _ _ _ e39 l)
    exact inRange_of_tests (a1 l) p0 p1
  · obtain ⟨p0, p1⟩ := IntOp.andi_eq_one.1 (Host.reduce_andi_all _ _ _ _ _ e46 l)
    exact inRange_of_tests (a2 l) p0 p1

end Cert.PreDecode

end
-- ==== Proof.lean ====
/-
  Limb embedding: for every batch, time step and limb the program forms the limb vector (child joint minus parent
  joint), its length floored at a small positive number, a row of 256 numbers — the unit direction projected through a
  3 × 128 matrix plus a bias, then the length times a row plus a bias — and the layer norm of that row.

  The kernel gets the limb vector as a product with a matrix whose rows are "one-hot of the child minus one-hot of the
  parent", projects the unnormalised vector and multiplies by the reciprocal of the length; the reference looks the two
  joints up, divides the vector by the length and then projects.  On the extended reals these agree when the joint
  coordinates and the projection matrix are real numbers (then the length is a nonzero real, and
  (Σ_c v_c w_c) · (1/L) = Σ_c (v_c / L) w_c) and every parent and child number is one of the 17 joints (then the one-hot
  row has exactly one one, and the lookup neither wraps nor clamps).  Everything after the row — mean, variance,
  reciprocal square root, gain and offset — is the same function of the row on both sides.

  The kernel's result array is read block by block: grid point (batch, time tile) writes the block of 256 time steps,
  and the 64 blocks tile the array.  The reference's result is read one host operation at a time.
-/
import proofs.«429518_j69896297775214_2_alg».proof.Defs
import proofs.«429518_j69896297775214_2_alg».proof.Proof.Gen.Kernel
import proofs.«429518_j69896297775214_2_alg».proof.Proof.Gen.Kernel.Skeleton
import proofs.«429518_j69896297775214_2_alg».proof.Proof.Gen.Kernel.Launch
import proofs.«429518_j69896297775214_2_alg».proof.Proof.Gen.Kernel.Points
import proofs.«429518_j69896297775214_2_alg».proof.Proof.Gen.Kernel.Frame
import proofs.«429518_j69896297775214_2_alg».proof.Proof.Gen.KernelIdeal
import proofs.«429518_j69896297775214_2_alg».proof.Proof.Gen.KernelIdeal.Skeleton
import proofs.«429518_j69896297775214_2_alg».proof.Proof.Gen.KernelIdeal.Launch
import proofs.«429518_j69896297775214_2_alg».proof.Proof.Gen.KernelIdeal.Points
import proofs.«429518_j69896297775214_2_alg».proof.Proof.Gen.KernelIdeal.Frame
import proofs.«429518_j69896297775214_2_alg».proof.Proof.Gen.ReferenceIdeal
import proofs.«429518_j69896297775214_2_alg».proof.Proof.Gen.Pre_finite_inputs
import proofs.«429518_j69896297775214_2_alg».proof.Proof.Gen.KernelIdeal.Value
import proofs.«429518_j69896297775214_2_alg».proof.Proof.Gen.ReferenceIdeal.Run
import proofs.«429518_j69896297775214_2_alg».proof.Proof.Gen.ReferenceIdeal.Read
import proofs.«429518_j69896297775214_2_alg».proof.Proof.SpecLaw
import proofs.«429518_j69896297775214_2_alg».proof.Proof.KernelFinal
import proofs.«429518_j69896297775214_2_alg».proof.Proof.RefRead
import proofs.«429518_j69896297775214_2_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs to the end without a fault and leaves its arguments alone. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- So does the reference: its run, with the result forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the same array: the kernel's is the first arrangement of the limb-embedding row, the
    reference's the second, and the two agree on real coordinates and joint numbers in range. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Final.GKm m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  obtain ⟨hx, hw, hpa, hch⟩ := Cert.PreDecode.decode _ _ _ _ _ _ _ _ _ (hpre c)
  rw [Cert.ReferenceIdeal.Read.val_main_v56_eq, Cert.ReferenceIdeal.RefValue.ref_eq, h0, h1, h2, h3, h4, h5, h6, h7, h8]
  exact (Cert.Spec.arrangements_agree _ _ _ _ _ _ _ _ _ hx hw hpa hch).symm

theorem claim : Cert.Claim :=
  ⟨Cert.Kernel.Gen.facts, Cert.KernelIdeal.Gen.facts, Cert.ReferenceIdeal.Gen.facts, Cert.Pre_finite_inputs.Gen.facts,
    @frame_kernel Cert.Kernel.Gen.facts Cert.Pre_finite_inputs.Gen.facts,
    @frame_kernelIdeal Cert.KernelIdeal.Gen.facts Cert.Pre_finite_inputs.Gen.facts,
    @frame_referenceIdeal Cert.ReferenceIdeal.Gen.facts Cert.Pre_finite_inputs.Gen.facts,
    trivial,
    @algebraic Cert.KernelIdeal.Gen.facts Cert.ReferenceIdeal.Gen.facts Cert.Pre_finite_inputs.Gen.facts⟩

end Cert.Proof

end
